-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S3584x1024 : Shape := ⟨2, ![3584, 1024]⟩
abbrev S3584 : Shape := ⟨1, ![3584]⟩
abbrev S1025x512 : Shape := ⟨2, ![1025, 512]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S3584x1024 : S_.BroadcastsInDim S3584x1024 (![] : Fin 0 → Fin S3584x1024.rank)
  reducesTo_S3584x1024_S_d0_1 : S3584x1024.ReducesTo [0, 1] S_
  bcast_S_S3584 : S_.BroadcastsInDim S3584 (![] : Fin 0 → Fin S3584.rank)
  reducesTo_S3584_S_d0 : S3584.ReducesTo [0] S_
  bcast_S_S1025x512 : S_.BroadcastsInDim S1025x512 (![] : Fin 0 → Fin S1025x512.rank)
  reducesTo_S1025x512_S_d0_1 : S1025x512.ReducesTo [0, 1] S_

variable [Facts]

def fn_part1 {F : FTy → Type} [FloatOps F] (main_arg0 : IVec S32x1024 32) (main_v13 : IVec S_ 1) (main_v16 : IVec S1025x512 1) : IVec S_ 1 :=
  let main_c_5 : IVec S_ 1 := constantI S_ 1 1#1
  let main_v17 : IVec S_ 1 := (fun x v => Host.reduce IntOp.andi x v reducesTo_S1025x512_S_d0_1 h_S_) main_v16 main_c_5
  let main_v18 : IVec S_ 1 := andi main_v13 main_v17
  let main_c_6 : IVec S_ 32 := constantI S_ 32 0#32
  let main_v19 : IVec S32x1024 32 := broadcastInDim S32x1024 ![] bcast_S_S32x1024 main_c_6
  let main_v20 : IVec S32x1024 1 := cmpi .sge main_arg0 main_v19
  let main_c_7 : IVec S_ 1 := constantI S_ 1 1#1
  let main_v21 : IVec S_ 1 := (fun x v => Host.reduce IntOp.andi x v reducesTo_S32x1024_S_d0_1 h_S_) main_v20 main_c_7
  let main_v22 : IVec S_ 1 := andi main_v18 main_v21
  main_v22

def fn {F : FTy → Type} [FloatOps F] (main_arg0 : IVec S32x1024 32) (main_arg1 : FVec F S32x1024 .f32) (main_arg2 : FVec F S3584x1024 .f32) (main_arg3 : FVec F S3584 .f32) (main_arg4 : FVec F S1025x512 .f32) : IVec S_ 1 :=
  let main_v0 : FVec F S32x1024 .f32 := Host.absf main_arg1
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S3584x1024 .f32 := Host.absf main_arg2
  let main_cst_0 : FVec F S_ .f32 := constant S_ .f32 0x7F800000#32
  let main_v5 : FVec F S3584x1024 .f32 := broadcastInDim S3584x1024 ![] bcast_S_S3584x1024 main_cst_0
  let main_v6 : IVec S3584x1024 1 := cmpf .olt main_v4 main_v5
  let main_c_1 : IVec S_ 1 := constantI S_ 1 1#1
  let main_v7 : IVec S_ 1 := (fun x v => Host.reduce IntOp.andi x v reducesTo_S3584x1024_S_d0_1 h_S_) main_v6 main_c_1
  let main_v8 : IVec S_ 1 := andi main_v3 main_v7
  let main_v9 : FVec F S3584 .f32 := Host.absf main_arg3
  let main_cst_2 : FVec F S_ .f32 := constant S_ .f32 0x7F800000#32
  let main_v10 : FVec F S3584 .f32 := broadcastInDim S3584 ![] bcast_S_S3584 main_cst_2
  let main_v11 : IVec S3584 1 := cmpf .olt main_v9 main_v10
  let main_c_3 : IVec S_ 1 := constantI S_ 1 1#1
  let main_v12 : IVec S_ 1 := (fun x v => Host.reduce IntOp.andi x v reducesTo_S3584_S_d0 h_S_) main_v11 main_c_3
  let main_v13 : IVec S_ 1 := andi main_v8 main_v12
  let main_v14 : FVec F S1025x512 .f32 := Host.absf main_arg4
  let main_cst_4 : FVec F S_ .f32 := constant S_ .f32 0x7F800000#32
  let main_v15 : FVec F S1025x512 .f32 := broadcastInDim S1025x512 ![] bcast_S_S1025x512 main_cst_4
  let main_v16 : IVec S1025x512 1 := cmpf .olt main_v14 main_v15
  fn_part1 (F := F) main_arg0 main_v13 main_v16
-- ==== Kernel.lean ====
abbrev S32x1024 : Shape := ⟨2, ![32, 1024]⟩
abbrev S3584x1024 : Shape := ⟨2, ![3584, 1024]⟩
abbrev S3584 : Shape := ⟨1, ![3584]⟩
abbrev S1025x512 : Shape := ⟨2, ![1025, 512]⟩
abbrev S5 : Shape := ⟨1, ![5]⟩
abbrev S3584x512 : Shape := ⟨2, ![3584, 512]⟩
abbrev S7x512x512 : Shape := ⟨3, ![7, 512, 512]⟩
abbrev S_ : Shape := ⟨0, ![]⟩
abbrev S5x1 : Shape := ⟨2, ![5, 1]⟩
abbrev S5x512x512 : Shape := ⟨3, ![5, 512, 512]⟩
abbrev S2560x512 : Shape := ⟨2, ![2560, 512]⟩
abbrev S512x2560 : Shape := ⟨2, ![512, 2560]⟩
abbrev S7x512 : Shape := ⟨2, ![7, 512]⟩
abbrev S5x512 : Shape := ⟨2, ![5, 512]⟩
abbrev S2560 : Shape := ⟨1, ![2560]⟩
abbrev S1024x32 : Shape := ⟨2, ![1024, 32]⟩
abbrev S32768x1 : Shape := ⟨2, ![32768, 1]⟩
abbrev S1024x32x1 : Shape := ⟨3, ![1024, 32, 1]⟩
abbrev S1024x32x512 : Shape := ⟨3, ![1024, 32, 512]⟩
abbrev S32768x512 : Shape := ⟨2, ![32768, 512]⟩
abbrev S33024x512 : Shape := ⟨2, ![33024, 512]⟩
abbrev S33024x1 : Shape := ⟨2, ![33024, 1]⟩
abbrev S5x33024x512 : Shape := ⟨3, ![5, 33024, 512]⟩
abbrev S768x512 : Shape := ⟨2, ![768, 512]⟩
abbrev S768x1 : Shape := ⟨2, ![768, 1]⟩
abbrev S5x768x512 : Shape := ⟨3, ![5, 768, 512]⟩
abbrev S768 : Shape := ⟨1, ![768]⟩
abbrev S512x512 : Shape := ⟨2, ![512, 512]⟩
abbrev S512 : Shape := ⟨1, ![512]⟩
abbrev S1x512 : Shape := ⟨2, ![1, 512]⟩
abbrev S1x768x512 : Shape := ⟨3, ![1, 768, 512]⟩
abbrev S5x32768x512 : Shape := ⟨3, ![5, 32768, 512]⟩
abbrev S5x1024x32x512 : Shape := ⟨4, ![5, 1024, 32, 512]⟩

abbrev nBuf : Space → Nat
  | .hbm => 62
  | .vmem => 8
  | .smem => 0
  | _ => 0

abbrev bufTy : (tb : Table) → Fin (tcTables nBuf tb) → BufTy
  | .hbm, ⟨0, _⟩ => ⟨S32x1024, .i32⟩
  | .hbm, ⟨1, _⟩ => ⟨S32x1024, .f32⟩
  | .hbm, ⟨2, _⟩ => ⟨S3584x1024, .f32⟩
  | .hbm, ⟨3, _⟩ => ⟨S3584, .f32⟩
  | .hbm, ⟨4, _⟩ => ⟨S1025x512, .f32⟩
  | .hbm, ⟨5, _⟩ => ⟨S5, .i32⟩
  | .hbm, ⟨6, _⟩ => ⟨S3584x512, .f32⟩
  | .hbm, ⟨7, _⟩ => ⟨S7x512x512, .f32⟩
  | .hbm, ⟨8, _⟩ => ⟨S_, .i32⟩
  | .hbm, ⟨9, _⟩ => ⟨S5, .i32⟩
  | .hbm, ⟨10, _⟩ => ⟨S5, .i1⟩
  | .hbm, ⟨11, _⟩ => ⟨S_, .i32⟩
  | .hbm, ⟨12, _⟩ => ⟨S5, .i32⟩
  | .hbm, ⟨13, _⟩ => ⟨S5, .i32⟩
  | .hbm, ⟨14, _⟩ => ⟨S5, .i32⟩
  | .hbm, ⟨15, _⟩ => ⟨S5x1, .i32⟩
  | .hbm, ⟨16, _⟩ => ⟨S5x512x512, .f32⟩
  | .hbm, ⟨17, _⟩ => ⟨S2560x512, .f32⟩
  | .hbm, ⟨18, _⟩ => ⟨S512x2560, .f32⟩
  | .hbm, ⟨19, _⟩ => ⟨S7x512, .f32⟩
  | .hbm, ⟨20, _⟩ => ⟨S_, .i32⟩
  | .hbm, ⟨21, _⟩ => ⟨S5, .i32⟩
  | .hbm, ⟨22, _⟩ => ⟨S5, .i1⟩
  | .hbm, ⟨23, _⟩ => ⟨S_, .i32⟩
  | .hbm, ⟨24, _⟩ => ⟨S5, .i32⟩
  | .hbm, ⟨25, _⟩ => ⟨S5, .i32⟩
  | .hbm, ⟨26, _⟩ => ⟨S5, .i32⟩
  | .hbm, ⟨27, _⟩ => ⟨S5x1, .i32⟩
  | .hbm, ⟨28, _⟩ => ⟨S5x512, .f32⟩
  | .hbm, ⟨29, _⟩ => ⟨S2560, .f32⟩
  | .hbm, ⟨30, _⟩ => ⟨S512x2560, .bf16⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S32x1024, .i32⟩
  | .hbm, ⟨35, _⟩ => ⟨S32x1024, .i32⟩
  | .hbm, ⟨36, _⟩ => ⟨S_, .i32⟩
  | .hbm, ⟨37, _⟩ => ⟨S32x1024, .i32⟩
  | .hbm, ⟨38, _⟩ => ⟨S32x1024, .i32⟩
  | .hbm, ⟨39, _⟩ => ⟨S1024x32, .i32⟩
  | .hbm, ⟨40, _⟩ => ⟨S1024x32, .f32⟩
  | .hbm, ⟨41, _⟩ => ⟨S32768x1, .f32⟩
  | .hbm, ⟨42, _⟩ => ⟨S_, .i32⟩
  | .hbm, ⟨43, _⟩ => ⟨S1024x32, .i32⟩
  | .hbm, ⟨44, _⟩ => ⟨S1024x32, .i1⟩
  | .hbm, ⟨45, _⟩ => ⟨S_, .i32⟩
  | .hbm, ⟨46, _⟩ => ⟨S1024x32, .i32⟩
  | .hbm, ⟨47, _⟩ => ⟨S1024x32, .i32⟩
  | .hbm, ⟨48, _⟩ => ⟨S1024x32, .i32⟩
  | .hbm, ⟨49, _⟩ => ⟨S1024x32x1, .i32⟩
  | .hbm, ⟨50, _⟩ => ⟨S1024x32x512, .f32⟩
  | .hbm, ⟨51, _⟩ => ⟨S32768x512, .f32⟩
  | .hbm, ⟨52, _⟩ => ⟨S32768x512, .bf16⟩
  | .hbm, ⟨53, _⟩ => ⟨S_, .i32⟩
  | .hbm, ⟨54, _⟩ => ⟨S_, .bf16⟩
  | .hbm, ⟨55, _⟩ => ⟨S33024x512, .bf16⟩
  | .hbm, ⟨56, _⟩ => ⟨S_, .i32⟩
  | .hbm, ⟨57, _⟩ => ⟨S_, .f32⟩
  | .hbm, ⟨58, _⟩ => ⟨S33024x1, .f32⟩
  | .hbm, ⟨59, _⟩ => ⟨S5x33024x512, .f32⟩
  | .hbm, ⟨60, _⟩ => ⟨S5x32768x512, .f32⟩
  | .hbm, ⟨61, _⟩ => ⟨S5x1024x32x512, .f32⟩
  | .local _ .vmem, ⟨0, _⟩ => ⟨S768x512, .bf16⟩
  | .local _ .vmem, ⟨1, _⟩ => ⟨S768x512, .bf16⟩
  | .local _ .vmem, ⟨2, _⟩ => ⟨S768x1, .f32⟩
  | .local _ .vmem, ⟨3, _⟩ => ⟨S768x1, .f32⟩
  | .local _ .vmem, ⟨4, _⟩ => ⟨S512x2560, .bf16⟩
  | .local _ .vmem, ⟨5, _⟩ => ⟨S2560, .f32⟩
  | .local _ .vmem, ⟨6, _⟩ => ⟨S5x768x512, .f32⟩
  | .local _ .vmem, ⟨7, _⟩ => ⟨S5x768x512, .f32⟩
  | _, _ => ⟨S32x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_c_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_call1_v0 : Ref sig .tc := ⟨.hbm, 54, rfl⟩
abbrev main_v34 : Ref sig .tc := ⟨.hbm, 55, rfl⟩
abbrev main_c_9 : Ref sig .tc := ⟨.hbm, 56, rfl⟩
abbrev main_call2_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5x768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S3584x1024_S3584x512_0_0 : S3584x1024.Slices ![0, 0] S3584x512
  shapeCasts_S3584x512_S7x512x512 : S3584x512.ShapeCasts S7x512x512
  bcast_S_S5 : S_.BroadcastsInDim S5 (![] : Fin 0 → Fin S5.rank)
  bcast_S5_S5x1_0 : S5.BroadcastsInDim S5x1 (![0] : Fin 1 → Fin S5x1.rank)
  shapeCasts_S5x512x512_S2560x512 : S5x512x512.ShapeCasts S2560x512
  transposes_S2560x512_S512x2560_1_0 : S2560x512.Transposes [1, 0] S512x2560
  shapeCasts_S3584_S7x512 : S3584.ShapeCasts S7x512
  shapeCasts_S5x512_S2560 : S5x512.ShapeCasts S2560
  bitsLt_bf16_f32 : FTy.bits .bf16 < FTy.bits .f32
  bcast_S_S32x1024 : S_.BroadcastsInDim S32x1024 (![] : Fin 0 → Fin S32x1024.rank)
  transposes_S32x1024_S1024x32_1_0 : S32x1024.Transposes [1, 0] S1024x32
  shapeCasts_S1024x32_S32768x1 : S1024x32.ShapeCasts S32768x1
  bcast_S_S1024x32 : S_.BroadcastsInDim S1024x32 (![] : Fin 0 → Fin S1024x32.rank)
  bcast_S1024x32_S1024x32x1_0_1 : S1024x32.BroadcastsInDim S1024x32x1 (![0, 1] : Fin 2 → Fin S1024x32x1.rank)
  shapeCasts_S1024x32x512_S32768x512 : S1024x32x512.ShapeCasts S32768x512
  pads_S32768x512_S33024x512_02560_000 : S32768x512.Pads (![0, 0] : Fin 2 → Nat) ![256, 0] ![0, 0] S33024x512
  h_S_ : 0 < S_.numel
  pads_S32768x1_S33024x1_02560_000 : S32768x1.Pads (![0, 0] : Fin 2 → Nat) ![256, 0] ![0, 0] S33024x1
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S768x1_S768x1_0_0 : ∀ a, (![0, 0] : Fin 2 → Nat) a + S768x1.size a ≤ S768x1.size a
  h_S768x1 : 0 < S768x1.numel
  shapeCasts_S768x1_S768x1 : S768x1.ShapeCasts S768x1
  shapeCasts_S768x1_S768 : S768x1.ShapeCasts S768
  inb_S2560_S2560_0 : ∀ a, (![0] : Fin 1 → Nat) a + S2560.size a ≤ S2560.size a
  h_S2560 : 0 < S2560.numel
  shapeCasts_S2560_S2560 : S2560.ShapeCasts S2560
  inb_S512x2560_S512x512_0_0 : ∀ a, (![0, 0] : Fin 2 → Nat) a + S512x512.size a ≤ S512x2560.size a
  h_S512x512 : 0 < S512x512.numel
  shapeCasts_S512x512_S512x512 : S512x512.ShapeCasts S512x512
  slices_S2560_o0_S512 : S2560.Slices ![0] S512
  shapeCasts_S512_S1x512 : S512.ShapeCasts S1x512
  broadcasts_S1x512_S768x512 : S1x512.Broadcasts S768x512
  inb_S512x2560_S512x512_0_512 : ∀ a, (![0, 512] : Fin 2 → Nat) a + S512x512.size a ≤ S512x2560.size a
  slices_S2560_o512_S512 : S2560.Slices ![512] S512
  inb_S512x2560_S512x512_0_1536 : ∀ a, (![0, 1536] : Fin 2 → Nat) a + S512x512.size a ≤ S512x2560.size a
  slices_S2560_o1536_S512 : S2560.Slices ![1536] S512
  inb_S512x2560_S512x512_0_2048 : ∀ a, (![0, 2048] : Fin 2 → Nat) a + S512x512.size a ≤ S512x2560.size a
  slices_S2560_o2048_S512 : S2560.Slices ![2048] S512
  shapeCasts_S768_S768x1 : S768.ShapeCasts S768x1
  broadcasts_S768x1_S768x512 : S768x1.Broadcasts S768x512
  inb_S512x2560_S512x512_0_1024 : ∀ a, (![0, 1024] : Fin 2 → Nat) a + S512x512.size a ≤ S512x2560.size a
  slices_S2560_o1024_S512 : S2560.Slices ![1024] S512
  inb_S5x768x512_S1x768x512_0_0_0 : ∀ a, (![0, 0, 0] : Fin 3 → Nat) a + S1x768x512.size a ≤ S5x768x512.size a
  h_S1x768x512 : 0 < S1x768x512.numel
  shapeCasts_S1x768x512_S768x512 : S1x768x512.ShapeCasts S768x512
  shapeCasts_S768x512_S1x768x512 : S768x512.ShapeCasts S1x768x512
  inb_S5x768x512_S1x768x512_1_0_0 : ∀ a, (![1, 0, 0] : Fin 3 → Nat) a + S1x768x512.size a ≤ S5x768x512.size a
  inb_S5x768x512_S1x768x512_2_0_0 : ∀ a, (![2, 0, 0] : Fin 3 → Nat) a + S1x768x512.size a ≤ S5x768x512.size a
  inb_S5x768x512_S1x768x512_3_0_0 : ∀ a, (![3, 0, 0] : Fin 3 → Nat) a + S1x768x512.size a ≤ S5x768x512.size a
  inb_S5x768x512_S1x768x512_4_0_0 : ∀ a, (![4, 0, 0] : Fin 3 → Nat) a + S1x768x512.size a ≤ S5x768x512.size a
  slices_S5x33024x512_S5x32768x512_0_0_0 : S5x33024x512.Slices ![0, 0, 0] S5x32768x512
  shapeCasts_S5x32768x512_S5x1024x32x512 : S5x32768x512.ShapeCasts S5x1024x32x512
  gather_S7x512x512_S5x1_S5x512x512_12_0_n_n_0_1_1512512_wf : GatherDims.WF S7x512x512 S5x1 S5x512x512 [1, 2] [0] [] [0] [] 1 ![1, 512, 512]
  gather_S7x512_S5x1_S5x512_1_0_n_n_0_1_1512_wf : GatherDims.WF S7x512 S5x1 S5x512 [1] [0] [] [0] [] 1 ![1, 512]
  gather_S1025x512_S1024x32x1_S1024x32x512_2_0_n_n_0_2_1512_wf : GatherDims.WF S1025x512 S1024x32x1 S1024x32x512 [2] [0] [] [0] [] 2 ![1, 512]
  dot_S768x512_S512x512_S768x512_1_0_0_1_n_n_wf : DotDims.WF S768x512 S512x512 S768x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S768x512.size a ≤ S33024x512.size a
  hwx0_0 : ∀ i : grid0.Coords, EltTy.bits .bf16 = 32 ∨ (Rect.block (s := S33024x512) S768x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x1.size a ≤ S33024x1.size a
  hwx0_1 : ∀ i : grid0.Coords, EltTy.bits .f32 = 32 ∨ (Rect.block (s := S33024x1) S768x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2560.size a ≤ S512x2560.size a
  hwx0_2 : ∀ i : grid0.Coords, EltTy.bits .bf16 = 32 ∨ (Rect.block (s := S512x2560) S512x2560.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2560.size a ≤ S2560.size a
  hwx0_3 : ∀ i : grid0.Coords, EltTy.bits .f32 = 32 ∨ (Rect.block (s := S2560) S2560.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5x768x512.size a ≤ S5x33024x512.size a
  hwx0_4 : ∀ i : grid0.Coords, EltTy.bits .f32 = 32 ∨ (Rect.block (s := S5x33024x512) S5x768x512.size (cc0_transform_4 i) (hinb0_4 i)).WholeWords (EltTy.packing .f32)

variable [Facts₀]

def gather_S7x512x512_S5x1_S5x512x512_12_0_n_n_0_1_1512512 : GatherDims S7x512x512 S5x1 S5x512x512 where
  offsetDims := [1, 2]
  collapsedSliceDims := [0]
  operandBatchingDims := []
  startIndicesBatchingDims := []
  startIndexMap := [0]
  indexVectorDim := 1
  sliceSizes := ![1, 512, 512]
  wf := gather_S7x512x512_S5x1_S5x512x512_12_0_n_n_0_1_1512512_wf
def gather_S7x512_S5x1_S5x512_1_0_n_n_0_1_1512 : GatherDims S7x512 S5x1 S5x512 where
  offsetDims := [1]
  collapsedSliceDims := [0]
  operandBatchingDims := []
  startIndicesBatchingDims := []
  startIndexMap := [0]
  indexVectorDim := 1
  sliceSizes := ![1, 512]
  wf := gather_S7x512_S5x1_S5x512_1_0_n_n_0_1_1512_wf
def gather_S1025x512_S1024x32x1_S1024x32x512_2_0_n_n_0_2_1512 : GatherDims S1025x512 S1024x32x1 S1024x32x512 where
  offsetDims := [2]
  collapsedSliceDims := [0]
  operandBatchingDims := []
  startIndicesBatchingDims := []
  startIndexMap := [0]
  indexVectorDim := 2
  sliceSizes := ![1, 512]
  wf := gather_S1025x512_S1024x32x1_S1024x32x512_2_0_n_n_0_2_1512_wf
def dot_S768x512_S512x512_S768x512_1_0_0_1_n_n : DotDims S768x512 S512x512 S768x512 where
  lhsContracting := [1]
  rhsContracting := [0]
  lhsNonContracting := [0]
  rhsNonContracting := [1]
  lhsBatch := []
  rhsBatch := []
  wf := dot_S768x512_S512x512_S768x512_1_0_0_1_n_n_wf

abbrev win0_0 : Pipeline.Window sig grid0 :=
  Pipeline.Window.ofSpec (Memref.whole main_v34) S768x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S768x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x2560.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2560.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S5x768x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024 : Shape := ⟨2, ![32, 1024]⟩
abbrev S3584x1024 : Shape := ⟨2, ![3584, 1024]⟩
abbrev S3584 : Shape := ⟨1, ![3584]⟩
abbrev S1025x512 : Shape := ⟨2, ![1025, 512]⟩
abbrev S_ : Shape := ⟨0, ![]⟩
abbrev S32x1024x1 : Shape := ⟨3, ![32, 1024, 1]⟩
abbrev S32x1024x512 : Shape := ⟨3, ![32, 1024, 512]⟩
abbrev S32x1024x1024 : Shape := ⟨3, ![32, 1024, 1024]⟩
abbrev S32x1024x3584 : Shape := ⟨3, ![32, 1024, 3584]⟩
abbrev S1x1x3584 : Shape := ⟨3, ![1, 1, 3584]⟩
abbrev S1024x32x512 : Shape := ⟨3, ![1024, 32, 512]⟩
abbrev S1x1024x32x512 : Shape := ⟨4, ![1, 1024, 32, 512]⟩
abbrev S5x1024x32x512 : Shape := ⟨4, ![5, 1024, 32, 512]⟩

abbrev nBuf : Space → Nat
  | .hbm => 90
  | .vmem => 0
  | .smem => 0
  | _ => 0

abbrev bufTy : (tb : Table) → Fin (tcTables nBuf tb) → BufTy
  | .hbm, ⟨0, _⟩ => ⟨S32x1024, .i32⟩
  | .hbm, ⟨1, _⟩ => ⟨S32x1024, .f32⟩
  | .hbm, ⟨2, _⟩ => ⟨S3584x1024, .f32⟩
  | .hbm, ⟨3, _⟩ => ⟨S3584, .f32⟩
  | .hbm, ⟨4, _⟩ => ⟨S1025x512, .f32⟩
  | .hbm, ⟨5, _⟩ => ⟨S_, .i32⟩
  | .hbm, ⟨6, _⟩ => ⟨S32x1024, .i32⟩
  | .hbm, ⟨7, _⟩ => ⟨S32x1024, .i1⟩
  | .hbm, ⟨8, _⟩ => ⟨S_, .i32⟩
  | .hbm, ⟨9, _⟩ => ⟨S32x1024, .i32⟩
  | .hbm, ⟨10, _⟩ => ⟨S32x1024, .i32⟩
  | .hbm, ⟨11, _⟩ => ⟨S32x1024, .i32⟩
  | .hbm, ⟨12, _⟩ => ⟨S32x1024x1, .i32⟩
  | .hbm, ⟨13, _⟩ => ⟨S32x1024x512, .f32⟩
  | .hbm, ⟨14, _⟩ => ⟨S_, .f32⟩
  | .hbm, ⟨15, _⟩ => ⟨S32x1024x512, .f32⟩
  | .hbm, ⟨16, _⟩ => ⟨S32x1024x1024, .f32⟩
  | .hbm, ⟨17, _⟩ => ⟨S32x1024x3584, .f32⟩
  | .hbm, ⟨18, _⟩ => ⟨S1x1x3584, .f32⟩
  | .hbm, ⟨19, _⟩ => ⟨S32x1024x3584, .f32⟩
  | .hbm, ⟨20, _⟩ => ⟨S32x1024x3584, .f32⟩
  | .hbm, ⟨21, _⟩ => ⟨S32x1024x512, .f32⟩
  | .hbm, ⟨22, _⟩ => ⟨S32x1024x512, .f32⟩
  | .hbm, ⟨23, _⟩ => ⟨S32x1024x512, .f32⟩
  | .hbm, ⟨24, _⟩ => ⟨S32x1024x512, .f32⟩
  | .hbm, ⟨25, _⟩ => ⟨S32x1024x512, .f32⟩
  | .hbm, ⟨26, _⟩ => ⟨S32x1024x512, .f32⟩
  | .hbm, ⟨27, _⟩ => ⟨S32x1024x512, .f32⟩
  | .hbm, ⟨28, _⟩ => ⟨S32x1024x512, .f32⟩
  | .hbm, ⟨29, _⟩ => ⟨S32x1024x512, .f32⟩
  | .hbm, ⟨30, _⟩ => ⟨S_, .f32⟩
  | .hbm, ⟨31, _⟩ => ⟨S32x1024x512, .f32⟩
  | .hbm, ⟨32, _⟩ => ⟨S32x1024x512, .f32⟩
  | .hbm, ⟨33, _⟩ => ⟨S_, .f32⟩
  | .hbm, ⟨34, _⟩ => ⟨S32x1024x512, .f32⟩
  | .hbm, ⟨35, _⟩ => ⟨S32x1024x512, .f32⟩
  | .hbm, ⟨36, _⟩ => ⟨S32x1024x512, .f32⟩
  | .hbm, ⟨37, _⟩ => ⟨S32x1024x512, .f32⟩
  | .hbm, ⟨38, _⟩ => ⟨S32x1024x512, .f32⟩
  | .hbm, ⟨39, _⟩ => ⟨S_, .f32⟩
  | .hbm, ⟨40, _⟩ => ⟨S32x1024x512, .f32⟩
  | .hbm, ⟨41, _⟩ => ⟨S32x1024x512, .f32⟩
  | .hbm, ⟨42, _⟩ => ⟨S_, .f32⟩
  | .hbm, ⟨43, _⟩ => ⟨S32x1024x512, .f32⟩
  | .hbm, ⟨44, _⟩ => ⟨S32x1024x512, .f32⟩
  | .hbm, ⟨45, _⟩ => ⟨S32x1024x512, .f32⟩
  | .hbm, ⟨46, _⟩ => ⟨S32x1024x512, .f32⟩
  | .hbm, ⟨47, _⟩ => ⟨S_, .f32⟩
  | .hbm, ⟨48, _⟩ => ⟨S32x1024x512, .f32⟩
  | .hbm, ⟨49, _⟩ => ⟨S32x1024x512, .f32⟩
  | .hbm, ⟨50, _⟩ => ⟨S_, .f32⟩
  | .hbm, ⟨51, _⟩ => ⟨S32x1024x512, .f32⟩
  | .hbm, ⟨52, _⟩ => ⟨S32x1024x512, .f32⟩
  | .hbm, ⟨53, _⟩ => ⟨S_, .f32⟩
  | .hbm, ⟨54, _⟩ => ⟨S32x1024x512, .f32⟩
  | .hbm, ⟨55, _⟩ => ⟨S32x1024x512, .f32⟩
  | .hbm, ⟨56, _⟩ => ⟨S32x1024x512, .f32⟩
  | .hbm, ⟨57, _⟩ => ⟨S32x1024x512, .f32⟩
  | .hbm, ⟨58, _⟩ => ⟨S32x1024x512, .i1⟩
  | .hbm, ⟨59, _⟩ => ⟨S32x1024x512, .f32⟩
  | .hbm, ⟨60, _⟩ => ⟨S32x1024x512, .f32⟩
  | .hbm, ⟨61, _⟩ => ⟨S32x1024x512, .f32⟩
  | .hbm, ⟨62, _⟩ => ⟨S32x1024x512, .f32⟩
  | .hbm, ⟨63, _⟩ => ⟨S32x1024x512, .f32⟩
  | .hbm, ⟨64, _⟩ => ⟨S32x1024x512, .f32⟩
  | .hbm, ⟨65, _⟩ => ⟨S32x1024x512, .f32⟩
  | .hbm, ⟨66, _⟩ => ⟨S32x1024x512, .f32⟩
  | .hbm, ⟨67, _⟩ => ⟨S32x1024x512, .f32⟩
  | .hbm, ⟨68, _⟩ => ⟨S32x1024x512, .f32⟩
  | .hbm, ⟨69, _⟩ => ⟨S32x1024x512, .f32⟩
  | .hbm, ⟨70, _⟩ => ⟨S32x1024x512, .f32⟩
  | .hbm, ⟨71, _⟩ => ⟨S32x1024x1, .f32⟩
  | .hbm, ⟨72, _⟩ => ⟨S32x1024x512, .f32⟩
  | .hbm, ⟨73, _⟩ => ⟨S32x1024x512, .f32⟩
  | .hbm, ⟨74, _⟩ => ⟨S32x1024x512, .f32⟩
  | .hbm, ⟨75, _⟩ => ⟨S32x1024x512, .f32⟩
  | .hbm, ⟨76, _⟩ => ⟨S32x1024x512, .f32⟩
  | .hbm, ⟨77, _⟩ => ⟨S32x1024x512, .f32⟩
  | .hbm, ⟨78, _⟩ => ⟨S32x1024x512, .f32⟩
  | .hbm, ⟨79, _⟩ => ⟨S1024x32x512, .f32⟩
  | .hbm, ⟨80, _⟩ => ⟨S1024x32x512, .f32⟩
  | .hbm, ⟨81, _⟩ => ⟨S1024x32x512, .f32⟩
  | .hbm, ⟨82, _⟩ => ⟨S1024x32x512, .f32⟩
  | .hbm, ⟨83, _⟩ => ⟨S1024x32x512, .f32⟩
  | .hbm, ⟨84, _⟩ => ⟨S1x1024x32x512, .f32⟩
  | .hbm, ⟨85, _⟩ => ⟨S1x1024x32x512, .f32⟩
  | .hbm, ⟨86, _⟩ => ⟨S1x1024x32x512, .f32⟩
  | .hbm, ⟨87, _⟩ => ⟨S1x1024x32x512, .f32⟩
  | .hbm, ⟨88, _⟩ => ⟨S1x1024x32x512, .f32⟩
  | .hbm, ⟨89, _⟩ => ⟨S5x1024x32x512, .f32⟩
  | _, _ => ⟨S32x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩

abbrev nD : Nat := 1
abbrev τ : Topo := Topo.v7x

variable {F : FTy → Type} [FloatOps F]

class Facts₀ : Prop where
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S_S32x1024x512 : S_.BroadcastsInDim S32x1024x512 (![] : Fin 0 → Fin S32x1024x512.rank)
  concatenates_S32x1024x512_S32x1024x512_S32x1024x1024_d2 : Shape.Concatenates [S32x1024x512, S32x1024x512] S32x1024x1024 2
  bcast_S3584_S1x1x3584_2 : S3584.BroadcastsInDim S1x1x3584 (![2] : Fin 1 → Fin S1x1x3584.rank)
  bcast_S1x1x3584_S32x1024x3584_0_1_2 : S1x1x3584.BroadcastsInDim S32x1024x3584 (![0, 1, 2] : Fin 3 → Fin S32x1024x3584.rank)
  slices_S32x1024x3584_S32x1024x512_0_0_0 : S32x1024x3584.Slices ![0, 0, 0] S32x1024x512
  slices_S32x1024x3584_S32x1024x512_0_0_512 : S32x1024x3584.Slices ![0, 0, 512] S32x1024x512
  slices_S32x1024x3584_S32x1024x512_0_0_1024 : S32x1024x3584.Slices ![0, 0, 1024] S32x1024x512
  slices_S32x1024x3584_S32x1024x512_0_0_1536 : S32x1024x3584.Slices ![0, 0, 1536] S32x1024x512
  slices_S32x1024x3584_S32x1024x512_0_0_2048 : S32x1024x3584.Slices ![0, 0, 2048] S32x1024x512
  slices_S32x1024x3584_S32x1024x512_0_0_2560 : S32x1024x3584.Slices ![0, 0, 2560] S32x1024x512
  slices_S32x1024x3584_S32x1024x512_0_0_3072 : S32x1024x3584.Slices ![0, 0, 3072] S32x1024x512
  bcast_S32x1024x1_S32x1024x512_0_1_2 : S32x1024x1.BroadcastsInDim S32x1024x512 (![0, 1, 2] : Fin 3 → Fin S32x1024x512.rank)
  transposes_S32x1024x512_S1024x32x512_1_0_2 : S32x1024x512.Transposes [1, 0, 2] S1024x32x512
  bcast_S1024x32x512_S1x1024x32x512_1_2_3 : S1024x32x512.BroadcastsInDim S1x1024x32x512 (![1, 2, 3] : Fin 3 → Fin S1x1024x32x512.rank)
  concatenates_S1x1024x32x512_S1x1024x32x512_S1x1024x32x512_S1x1024x32x512_S1x1024x32x512_S5x1024x32x512_d0 : Shape.Concatenates [S1x1024x32x512, S1x1024x32x512, S1x1024x32x512, S1x1024x32x512, S1x1024x32x512] S5x1024x32x512 0
  gather_S1025x512_S32x1024x1_S32x1024x512_2_0_n_n_0_2_1512_wf : GatherDims.WF S1025x512 S32x1024x1 S32x1024x512 [2] [0] [] [0] [] 2 ![1, 512]
  dot_S32x1024x1024_S3584x1024_S32x1024x3584_2_1_01_0_n_n_wf : DotDims.WF S32x1024x1024 S3584x1024 S32x1024x3584 [2] [1] [0, 1] [0] [] []

variable [Facts₀]

def gather_S1025x512_S32x1024x1_S32x1024x512_2_0_n_n_0_2_1512 : GatherDims S1025x512 S32x1024x1 S32x1024x512 where
  offsetDims := [2]
  collapsedSliceDims := [0]
  operandBatchingDims := []
  startIndicesBatchingDims := []
  startIndexMap := [0]
  indexVectorDim := 2
  sliceSizes := ![1, 512]
  wf := gather_S1025x512_S32x1024x1_S32x1024x512_2_0_n_n_0_2_1512_wf
def dot_S32x1024x1024_S3584x1024_S32x1024x3584_2_1_01_0_n_n : DotDims S32x1024x1024 S3584x1024 S32x1024x3584 where
  lhsContracting := [2]
  rhsContracting := [1]
  lhsNonContracting := [0, 1]
  rhsNonContracting := [0]
  lhsBatch := []
  rhsBatch := []
  wf := dot_S32x1024x1024_S3584x1024_S32x1024x3584_2_1_01_0_n_n_wf

class Facts : Prop extends Facts₀ where

variable [Facts]
-- ==== Proof.Spec.lean ====
/-
  The function both programs compute, stated once over the five argument arrays.

  An event word selects a row of the 1025-row embedding table: the word read as a signed integer, a
  negative one taken as row 0 and one past the end as the last row.  A gate pre-activation is the
  product of that row with the first 512 columns of one row of the weight matrix, plus that row's
  bias; the weight matrix has seven blocks of 512 rows, and blocks 0, 2, 3, 4 and 6 are the input
  gate, the candidate, the output gate, the second input gate and the decay gate.  With both cell
  states reset at every step the continuous-time cell is a function of one (batch, time) position
  alone:

    c      = σ(z₀) · tanh(z₂)
    c̄      = σ(z₄) · tanh(z₂)
    δ      = softplus(z₆)
    c(d)   = c̄ + (c − c̄) · exp(−δ · d)        d the position's duration
    h      = σ(z₃) · tanh(c(d))

  and the result stacks h, c, c̄, σ(z₃) and δ, time-major.
-/
import Idealize.ShloMosaic.PureOps.Ideal
import Idealize.ShloMosaic.PureOps.Ideal.Laws
import Idealize.ShloMosaic.Lib.ValueIdx

noncomputable section

open scoped BigOperators

namespace Cert.DecayCell

open Idealize.ShloMosaic Idealize.ShloMosaic.ValueIdx

/-- The table row an event word selects: the word as a signed integer, clamped into the table. -/
def rowOf (w : BitVec 32) : Fin 1025 := ⟨min w.toInt.toNat 1024, by omega⟩

/-- Row `j` of block `g` of the seven-block weight matrix and bias. -/
def gateRow (g : Fin 7) (j : Fin 512) : Fin 3584 := ⟨g.val * 512 + j.val, by omega⟩

/-- Column `k` of the weight matrix's first half. -/
def firstHalf (k : Fin 512) : Fin 1024 := ⟨k.val, by omega⟩

/-- The pre-activation of weight row `G` at batch `b`, time `t`: the selected embedding row against the first
    512 columns of the weight row, plus the row's bias. -/
def preRow (ids : (⟨2, ![32, 1024]⟩ : Shape).Idx → BitVec 32) (W : (⟨2, ![3584, 1024]⟩ : Shape).Idx → EReal)
    (bias : (⟨1, ![3584]⟩ : Shape).Idx → EReal) (tab : (⟨2, ![1025, 512]⟩ : Shape).Idx → EReal)
    (G : Fin 3584) (b : Fin 32) (t : Fin 1024) : EReal :=
  (∑ k : Fin 512, tab (ix2 (rowOf (ids (ix2 b t))) k) * W (ix2 G (firstHalf k))) + bias (ix1 G)

/-- The pre-activation of gate row `(g, j)`. -/
def preAct (ids : (⟨2, ![32, 1024]⟩ : Shape).Idx → BitVec 32) (W : (⟨2, ![3584, 1024]⟩ : Shape).Idx → EReal)
    (bias : (⟨1, ![3584]⟩ : Shape).Idx → EReal) (tab : (⟨2, ![1025, 512]⟩ : Shape).Idx → EReal)
    (g : Fin 7) (b : Fin 32) (t : Fin 1024) (j : Fin 512) : EReal :=
  preRow ids W bias tab (gateRow g j) b t

/-- softplus, as `max x 0 + log(1 + e^(-|x|))`. -/
def softplus (x : EReal) : EReal := max x 0 + Ideal.log1p (Ideal.exp (-(max x (-x))))

/-- The five outputs of the cell from its five pre-activations (input, candidate, output, second input,
    decay) and the duration. -/
def cellOut (zi zz zo zib zd d : EReal) (s : Fin 5) : EReal :=
  let c := Ideal.logistic zi * Ideal.tanh zz
  let cbar := Ideal.logistic zib * Ideal.tanh zz
  let delta := softplus zd
  let cd := cbar + (c - cbar) * Ideal.exp (-delta * d)
  match s with
  | 0 => Ideal.logistic zo * Ideal.tanh cd
  | 1 => c
  | 2 => cbar
  | 3 => Ideal.logistic zo
  | 4 => delta

/-- Output `s` at time `t`, batch `b`, hidden unit `j`. -/
def resultAt (ids : (⟨2, ![32, 1024]⟩ : Shape).Idx → BitVec 32) (dur : (⟨2, ![32, 1024]⟩ : Shape).Idx → EReal)
    (W : (⟨2, ![3584, 1024]⟩ : Shape).Idx → EReal) (bias : (⟨1, ![3584]⟩ : Shape).Idx → EReal)
    (tab : (⟨2, ![1025, 512]⟩ : Shape).Idx → EReal) (s : Fin 5) (t : Fin 1024) (b : Fin 32) (j : Fin 512) : EReal :=
  cellOut (preAct ids W bias tab 0 b t j) (preAct ids W bias tab 2 b t j) (preAct ids W bias tab 3 b t j)
    (preAct ids W bias tab 4 b t j) (preAct ids W bias tab 6 b t j) (dur (ix2 b t)) s

/-- The whole result array, [5, 1024, 32, 512]. -/
def result (ids : (⟨2, ![32, 1024]⟩ : Shape).Idx → BitVec 32) (dur : (⟨2, ![32, 1024]⟩ : Shape).Idx → EReal)
    (W : (⟨2, ![3584, 1024]⟩ : Shape).Idx → EReal) (bias : (⟨1, ![3584]⟩ : Shape).Idx → EReal)
    (tab : (⟨2, ![1025, 512]⟩ : Shape).Idx → EReal) : (⟨4, ![5, 1024, 32, 512]⟩ : Shape).Idx → EReal :=
  fun i => resultAt ids dur W bias tab (i 0) (i 1) (i 2) (i 3)

/-- The word of the float 1 denotes the real 1. -/
theorem ofBits_one_f32 : Ideal.ofBits .f32 0x3F800000#32 = 1 := by
  simp [Ideal.ofBits, Ideal.ieee]
  rw [← EReal.coe_mul]
  norm_num

/-- "Ordered and different" never holds of a value and itself. -/
theorem cmp_one_self (x : EReal) : Ideal.cmp .one x x = 0#1 := by simp [Ideal.cmp]
/-- "Unordered or different" never holds of a value and itself: there is no NaN among the extended reals. -/
theorem cmp_une_self (x : EReal) : Ideal.cmp .une x x = 0#1 := by simp [Ideal.cmp]

end Cert.DecayCell

end
-- ==== Proof.Rows.lean ====
/-
  The kernel's four staged arrays as functions of the arguments, and the cell over them row by row.

  The kernel works on sequence positions laid out time-major: row r = t·32 + b of a 33024-row matrix,
  the 256 rows past 32768 being padding.  Its weight matrix holds, column g·512 + j, the first 512
  entries of weight row (sel g)·512 + j, for the five blocks sel = 0, 2, 3, 4, 6; its bias likewise.
  One row of the result is the cell of the five gate sums of that row.
-/
import proofs.«428705_j18296560681638_3_alg».proof.Proof.Spec

noncomputable section

open scoped BigOperators

namespace Cert.DecayCell

open Idealize.ShloMosaic Idealize.ShloMosaic.ValueIdx

/-- The five weight blocks the cell reads, of seven. -/
def sel : Fin 5 → Fin 7 := ![0, 2, 3, 4, 6]

/-- Column `j` of selected block `g`. -/
def colOf (g : Fin 5) (j : Fin 512) : Fin 2560 := ⟨g.val * 512 + j.val, by omega⟩

/-- The time-major row of position (t, b). -/
def seqRow (t : Fin 1024) (b : Fin 32) : Fin 33024 := ⟨t.val * 32 + b.val, by omega⟩

/-- The padded embedding rows: row t·32 + b is the table row the event word at (b, t) selects; zero rows after. -/
def embRows (ids : (⟨2, ![32, 1024]⟩ : Shape).Idx → BitVec 32) (tab : (⟨2, ![1025, 512]⟩ : Shape).Idx → EReal) :
    (⟨2, ![33024, 512]⟩ : Shape).Idx → EReal := fun i =>
  if h : (i 0).val < 32768 then
    tab (ix2 (rowOf (ids (ix2 (⟨(i 0).val % 32, Nat.mod_lt _ (by decide)⟩ : Fin 32) (⟨(i 0).val / 32, by omega⟩ : Fin 1024))))
      (⟨(i 1).val, (i 1).isLt⟩ : Fin 512))
  else 0

/-- The padded durations, one column: row t·32 + b is the duration at (b, t); zero after. -/
def durRows (dur : (⟨2, ![32, 1024]⟩ : Shape).Idx → EReal) : (⟨2, ![33024, 1]⟩ : Shape).Idx → EReal := fun i =>
  if h : (i 0).val < 32768 then
    dur (ix2 (⟨(i 0).val % 32, Nat.mod_lt _ (by decide)⟩ : Fin 32) (⟨(i 0).val / 32, by omega⟩ : Fin 1024))
  else 0

/-- The selected, transposed weights: entry (k, g·512 + j) is entry ((sel g)·512 + j, k) of the weight matrix. -/
def wSel (W : (⟨2, ![3584, 1024]⟩ : Shape).Idx → EReal) : (⟨2, ![512, 2560]⟩ : Shape).Idx → EReal := fun i =>
  W (ix2 (gateRow (sel (⟨(i 1).val / 512, by have h : (i 1).val < 2560 := (i 1).isLt; omega⟩ : Fin 5)) (⟨(i 1).val % 512, Nat.mod_lt _ (by decide)⟩ : Fin 512))
    (firstHalf (⟨(i 0).val, (i 0).isLt⟩ : Fin 512)))

/-- The selected bias: entry g·512 + j is entry (sel g)·512 + j of the bias. -/
def bSel (bias : (⟨1, ![3584]⟩ : Shape).Idx → EReal) : (⟨1, ![2560]⟩ : Shape).Idx → EReal := fun i =>
  bias (ix1 (gateRow (sel (⟨(i 0).val / 512, by have h : (i 0).val < 2560 := (i 0).isLt; omega⟩ : Fin 5)) (⟨(i 0).val % 512, Nat.mod_lt _ (by decide)⟩ : Fin 512)))

/-- The gate sum of row `r` of an `n`-row matrix against column (g, j) of the staged weights, plus the staged bias. -/
def gateSum {n : Nat} (E : (⟨2, ![n, 512]⟩ : Shape).Idx → EReal) (Wt : (⟨2, ![512, 2560]⟩ : Shape).Idx → EReal)
    (Bs : (⟨1, ![2560]⟩ : Shape).Idx → EReal) (r : Fin n) (g : Fin 5) (j : Fin 512) : EReal :=
  (∑ k : Fin 512, E (ix2 r k) * Wt (ix2 k (colOf g j))) + Bs (ix1 (colOf g j))

/-- Output `s` of the cell at row `r`, hidden unit `j`, over an `n`-row matrix of embeddings and column of
    durations. -/
def rowsOutAt {n : Nat} (E : (⟨2, ![n, 512]⟩ : Shape).Idx → EReal) (D : (⟨2, ![n, 1]⟩ : Shape).Idx → EReal)
    (Wt : (⟨2, ![512, 2560]⟩ : Shape).Idx → EReal) (Bs : (⟨1, ![2560]⟩ : Shape).Idx → EReal)
    (s : Fin 5) (r : Fin n) (j : Fin 512) : EReal :=
  cellOut (gateSum E Wt Bs r 0 j) (gateSum E Wt Bs r 1 j) (gateSum E Wt Bs r 2 j) (gateSum E Wt Bs r 3 j)
    (gateSum E Wt Bs r 4 j) (D (ix2 r (0 : Fin 1))) s

/-- The [5, n, 512] array of all outputs. -/
def rowsOut {n : Nat} (E : (⟨2, ![n, 512]⟩ : Shape).Idx → EReal) (D : (⟨2, ![n, 1]⟩ : Shape).Idx → EReal)
    (Wt : (⟨2, ![512, 2560]⟩ : Shape).Idx → EReal) (Bs : (⟨1, ![2560]⟩ : Shape).Idx → EReal) :
    (⟨3, ![5, n, 512]⟩ : Shape).Idx → EReal := fun i => rowsOutAt E D Wt Bs (i 0) (i 1) (i 2)

/-- Row t·32 + b of the padded embedding rows is the table row the event word at (b, t) selects. -/
theorem embRows_seqRow (ids : (⟨2, ![32, 1024]⟩ : Shape).Idx → BitVec 32) (tab : (⟨2, ![1025, 512]⟩ : Shape).Idx → EReal)
    (t : Fin 1024) (b : Fin 32) (k : Fin 512) :
    embRows ids tab (ix2 (seqRow t b) k) = tab (ix2 (rowOf (ids (ix2 b t))) k) := by
  have hlt : t.val * 32 + b.val < 32768 := by omega
  have hb : (t.val * 32 + b.val) % 32 = b.val := by omega
  have ht : (t.val * 32 + b.val) / 32 = t.val := by omega
  unfold embRows
  rw [dif_pos (show ((ix2 (seqRow t b) k) 0).val < 32768 from hlt)]
  have e1 : (⟨((ix2 (seqRow t b) k) 0).val % 32, Nat.mod_lt _ (by decide)⟩ : Fin 32) = b := Fin.ext hb
  have e2 : ∀ h, (⟨((ix2 (seqRow t b) k) 0).val / 32, h⟩ : Fin 1024) = t := fun _ => Fin.ext ht
  rw [e1, e2]

/-- Row t·32 + b of the padded durations is the duration at (b, t). -/
theorem durRows_seqRow (dur : (⟨2, ![32, 1024]⟩ : Shape).Idx → EReal) (t : Fin 1024) (b : Fin 32) :
    durRows dur (ix2 (seqRow t b) (0 : Fin 1)) = dur (ix2 b t) := by
  have hlt : t.val * 32 + b.val < 32768 := by omega
  have hb : (t.val * 32 + b.val) % 32 = b.val := by omega
  have ht : (t.val * 32 + b.val) / 32 = t.val := by omega
  unfold durRows
  rw [dif_pos (show ((ix2 (seqRow t b) (0 : Fin 1)) 0).val < 32768 from hlt)]
  have e1 : (⟨((ix2 (seqRow t b) (0 : Fin 1)) 0).val % 32, Nat.mod_lt _ (by decide)⟩ : Fin 32) = b := Fin.ext hb
  have e2 : ∀ h, (⟨((ix2 (seqRow t b) (0 : Fin 1)) 0).val / 32, h⟩ : Fin 1024) = t := fun _ => Fin.ext ht
  rw [e1, e2]

/-- Column g·512 + j of the staged weights, row k, is entry k of weight row (sel g)·512 + j. -/
theorem wSel_colOf (W : (⟨2, ![3584, 1024]⟩ : Shape).Idx → EReal) (k : Fin 512) (g : Fin 5) (j : Fin 512) :
    wSel W (ix2 k (colOf g j)) = W (ix2 (gateRow (sel g) j) (firstHalf k)) := by
  have hg : (g.val * 512 + j.val) / 512 = g.val := by omega
  have hj : (g.val * 512 + j.val) % 512 = j.val := by omega
  unfold wSel
  have e1 : ∀ h, (⟨((ix2 k (colOf g j)) 1).val / 512, h⟩ : Fin 5) = g := fun _ => Fin.ext hg
  have e2 : (⟨((ix2 k (colOf g j)) 1).val % 512, Nat.mod_lt _ (by decide)⟩ : Fin 512) = j := Fin.ext hj
  rw [e1, e2]

/-- Entry g·512 + j of the staged bias is entry (sel g)·512 + j of the bias. -/
theorem bSel_colOf (bias : (⟨1, ![3584]⟩ : Shape).Idx → EReal) (g : Fin 5) (j : Fin 512) :
    bSel bias (ix1 (colOf g j)) = bias (ix1 (gateRow (sel g) j)) := by
  have hg : (g.val * 512 + j.val) / 512 = g.val := by omega
  have hj : (g.val * 512 + j.val) % 512 = j.val := by omega
  unfold bSel
  have e1 : ∀ h, (⟨((ix1 (colOf g j)) 0).val / 512, h⟩ : Fin 5) = g := fun _ => Fin.ext hg
  have e2 : (⟨((ix1 (colOf g j)) 0).val % 512, Nat.mod_lt _ (by decide)⟩ : Fin 512) = j := Fin.ext hj
  rw [e1, e2]

/-- Over the staged arrays, the gate sum of the row of position (t, b) is the pre-activation of the selected
    block's row. -/
theorem gateSum_staged (ids : (⟨2, ![32, 1024]⟩ : Shape).Idx → BitVec 32) (W : (⟨2, ![3584, 1024]⟩ : Shape).Idx → EReal)
    (bias : (⟨1, ![3584]⟩ : Shape).Idx → EReal) (tab : (⟨2, ![1025, 512]⟩ : Shape).Idx → EReal)
    (t : Fin 1024) (b : Fin 32) (g : Fin 5) (j : Fin 512) :
    gateSum (embRows ids tab) (wSel W) (bSel bias) (seqRow t b) g j = preAct ids W bias tab (sel g) b t j := by
  unfold gateSum preAct preRow
  rw [bSel_colOf]
  congr 1
  exact Finset.sum_congr rfl fun k _ => by rw [embRows_seqRow, wSel_colOf]

/-- Over the staged arrays, the row of position (t, b) is the result at (t, b). -/
theorem rowsOutAt_staged (ids : (⟨2, ![32, 1024]⟩ : Shape).Idx → BitVec 32) (dur : (⟨2, ![32, 1024]⟩ : Shape).Idx → EReal)
    (W : (⟨2, ![3584, 1024]⟩ : Shape).Idx → EReal) (bias : (⟨1, ![3584]⟩ : Shape).Idx → EReal)
    (tab : (⟨2, ![1025, 512]⟩ : Shape).Idx → EReal) (s : Fin 5) (t : Fin 1024) (b : Fin 32) (j : Fin 512) :
    rowsOutAt (embRows ids tab) (durRows dur) (wSel W) (bSel bias) s (seqRow t b) j
      = resultAt ids dur W bias tab s t b j := by
  unfold rowsOutAt resultAt
  rw [gateSum_staged, gateSum_staged, gateSum_staged, gateSum_staged, gateSum_staged, durRows_seqRow]
  rfl

end Cert.DecayCell

end
-- ==== Proof.Body.lean ====
/-
  One grid point's output block, element by element: what the kernel body leaves in the output window's
  buffer is, at (s, r, j), output s of the cell at row r of the point's 768-row blocks, hidden unit j.

  Each of the five gates is the product of the block of rows with one 512-column block of the weights,
  accumulated from zero, plus the matching 512 entries of the bias broadcast down the rows; read at (r, j)
  that is the gate sum of row r against column g · 512 + j.  The cell's arithmetic is elementwise; the
  body writes 0 − y for −y and x − 0 for x, and its softplus selects on "x − 0 is ordered and different
  from itself", which never holds.  The five stores fill the five slabs of the buffer, so the buffer is
  one function of its index.
-/
import proofs.«428705_j18296560681638_3_alg».proof.Proof.Gen.KernelIdeal.Frame
import proofs.«428705_j18296560681638_3_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.DecayCell

/-! ## The product of a block of rows with one column block of the weights -/

/-- The operand indices of the product at output index i and contraction index q, axis by axis: the left operand at
    (i 0, q), the right one at (q, i 1). -/
theorem lhs_axis0 (i : S768x512.Idx) (q : dot_S768x512_S512x512_S768x512_1_0_0_1_n_n.contr.Idx) :
    (dot_S768x512_S512x512_S768x512_1_0_0_1_n_n.lhsIdx i q 0).val = (i 0).val := by
  unfold DotDims.lhsIdx
  rw [dif_neg (show ¬(0 : Fin S768x512.rank) ∈ dot_S768x512_S512x512_S768x512_1_0_0_1_n_n.lhsBatch by decide), dif_pos (show (0 : Fin S768x512.rank) ∈ dot_S768x512_S512x512_S768x512_1_0_0_1_n_n.lhsNonContracting by decide)]
  rfl
theorem lhs_axis1 (i : S768x512.Idx) (q : dot_S768x512_S512x512_S768x512_1_0_0_1_n_n.contr.Idx) :
    (dot_S768x512_S512x512_S768x512_1_0_0_1_n_n.lhsIdx i q 1).val = (q ⟨0, by decide⟩).val :=
  dot_S768x512_S512x512_S768x512_1_0_0_1_n_n.lhsIdx_val_of_single rfl i q
theorem rhs_axis0 (i : S768x512.Idx) (q : dot_S768x512_S512x512_S768x512_1_0_0_1_n_n.contr.Idx) :
    (dot_S768x512_S512x512_S768x512_1_0_0_1_n_n.rhsIdx i q 0).val = (q ⟨0, by decide⟩).val :=
  dot_S768x512_S512x512_S768x512_1_0_0_1_n_n.rhsIdx_val_of_single rfl i q
theorem rhs_axis1 (i : S768x512.Idx) (q : dot_S768x512_S512x512_S768x512_1_0_0_1_n_n.contr.Idx) :
    (dot_S768x512_S512x512_S768x512_1_0_0_1_n_n.rhsIdx i q 1).val = (i 1).val := by
  unfold DotDims.rhsIdx
  rw [dif_neg (show ¬(1 : Fin S512x512.rank) ∈ dot_S768x512_S512x512_S768x512_1_0_0_1_n_n.rhsBatch by decide), dif_pos (show (1 : Fin S512x512.rank) ∈ dot_S768x512_S512x512_S768x512_1_0_0_1_n_n.rhsNonContracting by decide)]
  rfl

/-- The product accumulated into the zero splat is, at (r, j), the sum over k of A (r, k) · B (k, j). -/
theorem product_apply (A : FVec Ideal S768x512 .bf16) (B : FVec Ideal S512x512 .bf16) (r : Fin 768) (j : Fin 512) :
    matmul dot_S768x512_S512x512_S768x512_1_0_0_1_n_n none A B (constant (F := Ideal) S768x512 .f32 0x00000000#32) (ix2 r j)
      = ∑ k : Fin 512, A (ix2 r k) * B (ix2 k j) := by
  simp only [matmul]
  rw [Ideal.matmul_constant_zero_apply, ← Equiv.sum_comp (contrEquiv1 dot_S768x512_S512x512_S768x512_1_0_0_1_n_n 512 rfl rfl).symm]
  refine Finset.sum_congr rfl fun k _ => ?_
  have hk := contrEquiv1_symm_val dot_S768x512_S512x512_S768x512_1_0_0_1_n_n 512 rfl rfl k
  have el : dot_S768x512_S512x512_S768x512_1_0_0_1_n_n.lhsIdx (ix2 r j) ((contrEquiv1 dot_S768x512_S512x512_S768x512_1_0_0_1_n_n 512 rfl rfl).symm k) = ix2 r k := funext fun a => Fin.ext (by
    match a with
    | ⟨0, _⟩ => exact lhs_axis0 _ _
    | ⟨1, _⟩ => exact (lhs_axis1 _ _).trans hk)
  have er : dot_S768x512_S512x512_S768x512_1_0_0_1_n_n.rhsIdx (ix2 r j) ((contrEquiv1 dot_S768x512_S512x512_S768x512_1_0_0_1_n_n 512 rfl rfl).symm k) = ix2 k j := funext fun a => Fin.ext (by
    match a with
    | ⟨0, _⟩ => exact (rhs_axis0 _ _).trans hk
    | ⟨1, _⟩ => exact rhs_axis1 _ _)
  rw [el, er]

/-! ## The blocks the body loads, and the bias row -/

/-- A load of the whole block of rows reads the block. -/
theorem ld_rows (x0 : Vec Ideal S768x512 .bf16) : View.ld x0 r0_0 = x0 :=
  View.ld_unit_zero (funext fun a => match a with | ⟨0, _⟩ => rfl | ⟨1, _⟩ => rfl) _ x0
/-- A load of the whole duration column reads the column. -/
theorem ld_dur (x1 : Vec Ideal S768x1 .f32) : View.ld x1 r0_1 = x1 :=
  View.ld_unit_zero (funext fun a => match a with | ⟨0, _⟩ => rfl | ⟨1, _⟩ => rfl) _ x1
/-- A load of the whole bias reads the bias. -/
theorem ld_bias (x3 : Vec Ideal S2560 .f32) : View.ld x3 r0_2 = x3 :=
  View.ld_unit_zero (funext fun a => match a with | ⟨0, _⟩ => rfl) _ x3

/-- The body's same-shape casts of the rows and of the bias are the identity. -/
theorem pay3_eq (x0 : Vec Ideal S768x512 .bf16) : k0_pay3 (View.ld x0 r0_0) = x0 := by
  unfold k0_pay3
  rw [shapeCast_self, ld_rows]
theorem pay5_eq (x3 : Vec Ideal S2560 .f32) : k0_pay5 (View.ld x3 r0_2) = x3 := by
  unfold k0_pay5
  rw [shapeCast_self, ld_bias]

/-- The 512-column block of the weights at column offset o = g · 512 reads, at (k, j), the weights at (k, g · 512 + j). -/
theorem ld_weights (x2 : Vec Ideal S512x2560 .bf16) (g : Fin 5) (o : Nat) (ho : o = g.val * 512)
    (inb : ∀ a, (![0, o] : Fin 2 → Nat) a + S512x512.size a ≤ S512x2560.size a) (k j : Fin 512) :
    View.ld x2 (Rect.unit (s := S512x2560) ![0, o] S512x512.size inb) (ix2 k j) = x2 (ix2 k (colOf g j)) := by
  show x2 ((Rect.unit (s := S512x2560) ![0, o] S512x512.size inb).idx (ix2 k j)) = _
  refine congrArg x2 (funext fun a => Fin.ext ?_)
  match a with
  | ⟨0, _⟩ => show 0 + 1 * k.val = k.val; omega
  | ⟨1, _⟩ => show o + 1 * j.val = g.val * 512 + j.val; omega

/-- The 512 entries of the bias from offset o = g · 512, as one row broadcast down the rows, read at (r, j) the bias
    at g · 512 + j. -/
theorem bias_row_apply (b : FVec Ideal S2560 .f32) (g : Fin 5) (o : Nat) (ho : o = g.val * 512) (hs : S2560.Slices ![o] S512)
    (hc : S512.ShapeCasts S1x512) (hb : S1x512.Broadcasts S768x512) (r : Fin 768) (j : Fin 512) :
    broadcastTo S768x512 (shapeCast S1x512 (extractStridedSlice S512 ![o] b hs) hc) hb (ix2 r j) = b (ix1 (colOf g j)) := by
  refine (broadcastTo_1b_ab_apply _ hb r j).trans ?_
  refine (shapeCast_a_1a_apply _ hc 0 j).trans ?_
  exact extractStridedSlice_apply _ _ _ _ _ (fun a => match a with
    | ⟨0, _⟩ => by show g.val * 512 + j.val = o + j.val; omega)

/-- A gate's pre-activation as the body computes it: the product with the gate's column block plus its bias row. -/
theorem gate_apply (x0 : Vec Ideal S768x512 .bf16) (x2 : Vec Ideal S512x2560 .bf16) (x3 : Vec Ideal S2560 .f32)
    (g : Fin 5) (o : Nat) (ho : o = g.val * 512)
    (inb : ∀ a, (![0, o] : Fin 2 → Nat) a + S512x512.size a ≤ S512x2560.size a) (hs : S2560.Slices ![o] S512)
    (h1 : S512x512.ShapeCasts S512x512) (hc : S512.ShapeCasts S1x512) (hb : S1x512.Broadcasts S768x512)
    (r : Fin 768) (j : Fin 512) :
    addf (matmul dot_S768x512_S512x512_S768x512_1_0_0_1_n_n none (k0_pay3 (View.ld x0 r0_0))
          (shapeCast S512x512 (View.ld x2 (Rect.unit (s := S512x2560) ![0, o] S512x512.size inb)) h1 : FVec Ideal S512x512 .bf16)
          (constant (F := Ideal) S768x512 .f32 0x00000000#32))
        (broadcastTo S768x512 (shapeCast S1x512 (extractStridedSlice S512 ![o] (k0_pay5 (View.ld x3 r0_2)) hs) hc) hb) (ix2 r j)
      = gateSum (n := 768) x0 x2 x3 r g j := by
  rw [addf_apply, product_apply, bias_row_apply _ g o ho, pay3_eq, pay5_eq]
  unfold gateSum
  congr 1
  refine Finset.sum_congr rfl fun k _ => ?_
  congr 1
  exact (congrFun (shapeCast_self (s := S512x512) _ h1) (ix2 k j)).trans (ld_weights x2 g o ho inb k j)

/-! ## The elementwise functions at an index -/

section Pointwise
variable {s : Shape}
theorem tanh_apply (a : FVec Ideal s .f32) (i : s.Idx) : Idealize.ShloMosaic.tanh a i = Ideal.tanh (a i) := rfl
theorem logistic_apply (a : FVec Ideal s .f32) (i : s.Idx) : Idealize.ShloMosaic.logistic a i = Ideal.logistic (a i) := rfl
theorem exp_apply (a : FVec Ideal s .f32) (i : s.Idx) : Idealize.ShloMosaic.exp a i = Ideal.exp (a i) := rfl
theorem log1p_apply (a : FVec Ideal s .f32) (i : s.Idx) : Idealize.ShloMosaic.log1p a i = Ideal.log1p (a i) := rfl
theorem absf_apply (a : FVec Ideal s .f32) (i : s.Idx) : Idealize.ShloMosaic.absf a i = max (a i) (-(a i)) := rfl
end Pointwise

/-! ## The gates -/

/-- The candidate: tanh of gate 1. -/
theorem pay6_apply (x0 : Vec Ideal S768x512 .bf16) (x2 : Vec Ideal S512x2560 .bf16) (x3 : Vec Ideal S2560 .f32)
    (r : Fin 768) (j : Fin 512) :
    k0_pay6 (View.ld x0 r0_0) (View.ld x3 r0_2) (View.ld x2 r0_4) (ix2 r j)
      = Ideal.tanh (gateSum (n := 768) x0 x2 x3 r 1 j) := by
  unfold k0_pay6
  simp only [tanh_apply]
  rw [gate_apply x0 x2 x3 1 512 (by decide)]

/-- The first cell state: σ of gate 0 times the candidate. -/
theorem pay7_apply (x0 : Vec Ideal S768x512 .bf16) (x2 : Vec Ideal S512x2560 .bf16) (x3 : Vec Ideal S2560 .f32)
    (r : Fin 768) (j : Fin 512) :
    k0_pay7 (View.ld x0 r0_0) (View.ld x3 r0_2) (View.ld x2 r0_3) (View.ld x2 r0_4) (ix2 r j)
      = Ideal.logistic (gateSum (n := 768) x0 x2 x3 r 0 j) * Ideal.tanh (gateSum (n := 768) x0 x2 x3 r 1 j) := by
  unfold k0_pay7
  simp only [mulf_apply, logistic_apply]
  rw [pay6_apply, gate_apply x0 x2 x3 0 0 (by decide)]

/-- The second cell state: σ of gate 3 times the candidate. -/
theorem pay8_apply (x0 : Vec Ideal S768x512 .bf16) (x2 : Vec Ideal S512x2560 .bf16) (x3 : Vec Ideal S2560 .f32)
    (r : Fin 768) (j : Fin 512) :
    k0_pay8 (View.ld x0 r0_0) (View.ld x3 r0_2) (View.ld x2 r0_4) (View.ld x2 r0_5) (ix2 r j)
      = Ideal.logistic (gateSum (n := 768) x0 x2 x3 r 3 j) * Ideal.tanh (gateSum (n := 768) x0 x2 x3 r 1 j) := by
  unfold k0_pay8
  simp only [mulf_apply, logistic_apply]
  rw [pay6_apply, gate_apply x0 x2 x3 3 1536 (by decide)]

/-- The decay gate's pre-activation: gate 4. -/
theorem pay9_apply (x0 : Vec Ideal S768x512 .bf16) (x2 : Vec Ideal S512x2560 .bf16) (x3 : Vec Ideal S2560 .f32)
    (r : Fin 768) (j : Fin 512) :
    k0_pay9 (View.ld x0 r0_0) (View.ld x3 r0_2) (View.ld x2 r0_6) (ix2 r j) = gateSum (n := 768) x0 x2 x3 r 4 j := by
  unfold k0_pay9
  exact gate_apply x0 x2 x3 4 2048 (by decide) _ _ _ _ _ r j

/-- The output gate: σ of gate 2. -/
theorem pay12_apply (x0 : Vec Ideal S768x512 .bf16) (x2 : Vec Ideal S512x2560 .bf16) (x3 : Vec Ideal S2560 .f32)
    (r : Fin 768) (j : Fin 512) :
    k0_pay12 (k0_pay3 (View.ld x0 r0_0)) (k0_pay5 (View.ld x3 r0_2)) (View.ld x2 r0_7) (ix2 r j)
      = Ideal.logistic (gateSum (n := 768) x0 x2 x3 r 2 j) := by
  unfold k0_pay12
  simp only [logistic_apply]
  rw [gate_apply x0 x2 x3 2 1024 (by decide)]

/-- The decay rate: softplus, the branch for an unordered operand never taken. -/
theorem pay11_apply (v : FVec Ideal S768x512 .f32) (i : S768x512.Idx) :
    k0_pay11 v (Scalar.ofBits .f32 0x00000000#32) (k0_pay10 (F := Ideal)) i = softplus (v i) := by
  unfold k0_pay11 k0_pay10 softplus
  simp only [select_apply, cmpf_apply, addf_apply, subf_apply, maximumf_apply, broadcast_apply, log1p_apply, exp_apply,
    absf_apply, Ideal.cmpf_def, cmp_one_self, select_zero]
  show max (v i) (Ideal.ofBits .f32 0x00000000#32)
      + Ideal.log1p (Ideal.exp (Ideal.ofBits .f32 0x00000000#32
          - max (v i - Ideal.ofBits .f32 0x00000000#32) (-(v i - Ideal.ofBits .f32 0x00000000#32)))) = _
  rw [Ideal.ofBits_zero_f32, sub_zero, zero_sub]

/-! ## The duration column -/

/-- The duration column, cast to a vector and back and broadcast across the row, reads at (r, j) the duration of row r. -/
theorem dur_apply (x1 : Vec Ideal S768x1 .f32) (hc : S768.ShapeCasts S768x1) (hb : S768x1.Broadcasts S768x512)
    (r : Fin 768) (j : Fin 512) :
    broadcastTo S768x512 (shapeCast S768x1 (k0_pay4 (View.ld x1 r0_1)) hc) hb (ix2 r j) = x1 (ix2 r (0 : Fin 1)) := by
  refine (broadcastTo_apply _ hb (ix2 r j) (ix2 r (0 : Fin 1)) (fun a => ?_)).trans ?_
  · match a with
    | ⟨0, _⟩ => show r.val = if (768 : Nat) = 1 then 0 else r.val; rw [if_neg (by decide)]
    | ⟨1, _⟩ => show 0 = if (1 : Nat) = 1 then 0 else j.val; rw [if_pos rfl]
  refine (shapeCast_apply _ hc (ix2 r (0 : Fin 1)) (ix1 r) (by
    rw [Shape.rowMajor_val_one, Shape.rowMajor_val_two]; show r.val = r.val * 1 + 0; omega)).trans ?_
  unfold k0_pay4
  refine (shapeCast_apply _ _ (ix1 r) (ix2 r (0 : Fin 1)) (by
    rw [Shape.rowMajor_val_one, Shape.rowMajor_val_two]; show r.val * 1 + 0 = r.val; omega)).trans ?_
  rw [shapeCast_self, ld_dur]

/-! ## The five stores -/

/-- Store 0: the hidden state. -/
theorem store0_apply (x0 : Vec Ideal S768x512 .bf16) (x1 : Vec Ideal S768x1 .f32) (x2 : Vec Ideal S512x2560 .bf16)
    (x3 : Vec Ideal S2560 .f32) (u : Fin 1) (r : Fin 768) (j : Fin 512) :
    k0_pay13 (k0_pay3 (View.ld x0 r0_0)) (k0_pay4 (View.ld x1 r0_1)) (k0_pay5 (View.ld x3 r0_2))
        (k0_pay7 (View.ld x0 r0_0) (View.ld x3 r0_2) (View.ld x2 r0_3) (View.ld x2 r0_4))
        (k0_pay8 (View.ld x0 r0_0) (View.ld x3 r0_2) (View.ld x2 r0_4) (View.ld x2 r0_5))
        (k0_pay9 (View.ld x0 r0_0) (View.ld x3 r0_2) (View.ld x2 r0_6))
        (Scalar.ofBits .f32 0x00000000#32) (k0_pay10 (F := Ideal)) (View.ld x2 r0_7) (ix3 u r j)
      = rowsOutAt (n := 768) x0 x1 x2 x3 0 r j := by
  unfold k0_pay13
  refine (shapeCast_ab_1ab_apply _ _ u r j).trans ?_
  simp only [mulf_apply, tanh_apply, addf_apply, subf_apply, exp_apply, broadcast_apply]
  rw [pay12_apply, pay7_apply, pay8_apply, pay11_apply, pay9_apply, dur_apply]
  simp only [Ideal.ofBits_def, Ideal.ofBits_zero_f32, zero_sub]
  rfl

/-- Store 1: the first cell state. -/
theorem store1_apply (x0 : Vec Ideal S768x512 .bf16) (x1 : Vec Ideal S768x1 .f32) (x2 : Vec Ideal S512x2560 .bf16)
    (x3 : Vec Ideal S2560 .f32) (u : Fin 1) (r : Fin 768) (j : Fin 512) :
    k0_pay14 (k0_pay7 (View.ld x0 r0_0) (View.ld x3 r0_2) (View.ld x2 r0_3) (View.ld x2 r0_4)) (ix3 u r j)
      = rowsOutAt (n := 768) x0 x1 x2 x3 1 r j := by
  unfold k0_pay14
  refine (shapeCast_ab_1ab_apply _ _ u r j).trans ?_
  rw [pay7_apply]
  rfl

/-- Store 2: the second cell state. -/
theorem store2_apply (x0 : Vec Ideal S768x512 .bf16) (x1 : Vec Ideal S768x1 .f32) (x2 : Vec Ideal S512x2560 .bf16)
    (x3 : Vec Ideal S2560 .f32) (u : Fin 1) (r : Fin 768) (j : Fin 512) :
    k0_pay15 (k0_pay8 (View.ld x0 r0_0) (View.ld x3 r0_2) (View.ld x2 r0_4) (View.ld x2 r0_5)) (ix3 u r j)
      = rowsOutAt (n := 768) x0 x1 x2 x3 2 r j := by
  unfold k0_pay15
  refine (shapeCast_ab_1ab_apply _ _ u r j).trans ?_
  rw [pay8_apply]
  rfl

/-- Store 3: the output gate. -/
theorem store3_apply (x0 : Vec Ideal S768x512 .bf16) (x1 : Vec Ideal S768x1 .f32) (x2 : Vec Ideal S512x2560 .bf16)
    (x3 : Vec Ideal S2560 .f32) (u : Fin 1) (r : Fin 768) (j : Fin 512) :
    k0_pay1 (k0_pay12 (k0_pay3 (View.ld x0 r0_0)) (k0_pay5 (View.ld x3 r0_2)) (View.ld x2 r0_7)) (ix3 u r j)
      = rowsOutAt (n := 768) x0 x1 x2 x3 3 r j := by
  unfold k0_pay1
  refine (shapeCast_ab_1ab_apply _ _ u r j).trans ?_
  rw [pay12_apply]
  rfl

/-- Store 4: the decay rate. -/
theorem store4_apply (x0 : Vec Ideal S768x512 .bf16) (x1 : Vec Ideal S768x1 .f32) (x2 : Vec Ideal S512x2560 .bf16)
    (x3 : Vec Ideal S2560 .f32) (u : Fin 1) (r : Fin 768) (j : Fin 512) :
    k0_pay2 (k0_pay11 (k0_pay9 (View.ld x0 r0_0) (View.ld x3 r0_2) (View.ld x2 r0_6)) (Scalar.ofBits .f32 0x00000000#32)
        (k0_pay10 (F := Ideal))) (ix3 u r j)
      = rowsOutAt (n := 768) x0 x1 x2 x3 4 r j := by
  unfold k0_pay2
  refine (shapeCast_ab_1ab_apply _ _ u r j).trans ?_
  rw [pay11_apply, pay9_apply]
  rfl

/-- Slab s of the output buffer: its element (u, r, j) is the buffer's element (s, r, j). -/
theorem slab_emb (s : Fin 5) (o : Nat) (ho : o = s.val)
    (inb : ∀ a, (![o, 0, 0] : Fin 3 → Nat) a + S1x768x512.size a ≤ S5x768x512.size a)
    (u : Fin 1) (r : Fin 768) (j : Fin 512) :
    (Rect.unit (s := S5x768x512) ![o, 0, 0] S1x768x512.size inb).emb (ix3 u r j) = ix3 s r j := by
  funext a; apply Fin.ext
  match a with
  | ⟨0, _⟩ => show o + 1 * u.val = s.val; have := u.isLt; omega
  | ⟨1, _⟩ => show 0 + 1 * r.val = r.val; omega
  | ⟨2, _⟩ => show 0 + 1 * j.val = j.val; omega

/-- The output block at (s, r, j) is output s of the cell at row r over the point's blocks. -/
theorem out0_4_apply (x0 : Vec Ideal S768x512 .bf16) (x1 : Vec Ideal S768x1 .f32) (x2 : Vec Ideal S512x2560 .bf16)
    (x3 : Vec Ideal S2560 .f32) (s : Fin 5) (r : Fin 768) (j : Fin 512) :
    out0_4 (F := Ideal) x0 x1 x2 x3 (ix3 s r j) = rowsOutAt (n := 768) x0 x1 x2 x3 s r j := by
  unfold out0_4
  refine (View.canon_apply_of_pieces (rowsOut (n := 768) x0 x1 x2 x3) _ ?_ (ix3 s r j) (cover0_4 _ _ _ _ _ _)).trans rfl
  intro pc hpc x
  rcases List.mem_cons.mp hpc with rfl | hpc
  · obtain ⟨u, p, q, rfl⟩ : ∃ (u : Fin 1) (p : Fin 768) (q : Fin 512), x = ix3 u p q := ⟨x 0, x 1, x 2, eq_ix3 x⟩
    refine (store4_apply x0 x1 x2 x3 u p q).trans ?_
    exact (congrArg (rowsOut (n := 768) x0 x1 x2 x3) (slab_emb 4 4 rfl inb_S5x768x512_S1x768x512_4_0_0 u p q)).symm
  rcases List.mem_cons.mp hpc with rfl | hpc
  · obtain ⟨u, p, q, rfl⟩ : ∃ (u : Fin 1) (p : Fin 768) (q : Fin 512), x = ix3 u p q := ⟨x 0, x 1, x 2, eq_ix3 x⟩
    refine (store3_apply x0 x1 x2 x3 u p q).trans ?_
    exact (congrArg (rowsOut (n := 768) x0 x1 x2 x3) (slab_emb 3 3 rfl inb_S5x768x512_S1x768x512_3_0_0 u p q)).symm
  rcases List.mem_cons.mp hpc with rfl | hpc
  · obtain ⟨u, p, q, rfl⟩ : ∃ (u : Fin 1) (p : Fin 768) (q : Fin 512), x = ix3 u p q := ⟨x 0, x 1, x 2, eq_ix3 x⟩
    refine (store2_apply x0 x1 x2 x3 u p q).trans ?_
    exact (congrArg (rowsOut (n := 768) x0 x1 x2 x3) (slab_emb 2 2 rfl inb_S5x768x512_S1x768x512_2_0_0 u p q)).symm
  rcases List.mem_cons.mp hpc with rfl | hpc
  · obtain ⟨u, p, q, rfl⟩ : ∃ (u : Fin 1) (p : Fin 768) (q : Fin 512), x = ix3 u p q := ⟨x 0, x 1, x 2, eq_ix3 x⟩
    refine (store1_apply x0 x1 x2 x3 u p q).trans ?_
    exact (congrArg (rowsOut (n := 768) x0 x1 x2 x3) (slab_emb 1 1 rfl inb_S5x768x512_S1x768x512_1_0_0 u p q)).symm
  rcases List.mem_cons.mp hpc with rfl | hpc
  · obtain ⟨u, p, q, rfl⟩ : ∃ (u : Fin 1) (p : Fin 768) (q : Fin 512), x = ix3 u p q := ⟨x 0, x 1, x 2, eq_ix3 x⟩
    refine (store0_apply x0 x1 x2 x3 u p q).trans ?_
    exact (congrArg (rowsOut (n := 768) x0 x1 x2 x3) (slab_emb 0 0 rfl inb_S5x768x512_S1x768x512_0_0_0 u p q)).symm
  nomatch hpc

end Cert.KernelIdeal.Body

end
-- ==== Proof.Array.lean ====
/-
  From blocks to the array: after the region the kernel's output array holds, at (s, r, j), output s of the cell
  at row r of the staged arrays. Grid point p writes rows p·768 … p·768 + 767 of all five outputs, and the 43
  points cover the 33024 rows.
-/
import proofs.«428705_j18296560681638_3_alg».proof.Proof.Body

noncomputable section

namespace Cert.KernelIdeal.Array

open Idealize.ShloMosaic Idealize.ShloMosaic.TcCoe Idealize.ShloMosaic.ValueIdx Idealize.SL.Sem
open Cert.KernelIdeal Cert.KernelIdeal.Gen Cert.DecayCell

variable (m : (ℓ : Loc nD τ sig) → Buf (Elt Ideal) ℓ)

/-- The printed index maps over the grid: the two row-blocked inputs and the output move with the point along
    their row axis, and every other block index is zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = 0 ∧ win0_4.index t (1 : Fin 3) = t.val ∧ win0_4.index t (2 : Fin 3) = 0 :=
  (by decide +kernel : ∀ t : Fin grid0.N, _)

/-- The cell at a row reads only that row of the embeddings and of the durations: two settings that agree there,
    and on the weights and the bias, give the same outputs. -/
theorem rowsOutAt_congr {n n' : Nat} (E : (⟨2, ![n, 512]⟩ : Shape).Idx → EReal) (E' : (⟨2, ![n', 512]⟩ : Shape).Idx → EReal)
    (D : (⟨2, ![n, 1]⟩ : Shape).Idx → EReal) (D' : (⟨2, ![n', 1]⟩ : Shape).Idx → EReal)
    (Wt Wt' : (⟨2, ![512, 2560]⟩ : Shape).Idx → EReal) (Bs Bs' : (⟨1, ![2560]⟩ : Shape).Idx → EReal)
    (s : Fin 5) (r : Fin n) (r' : Fin n') (j : Fin 512)
    (hE : ∀ k : Fin 512, E (ix2 r k) = E' (ix2 r' k)) (hD : D (ix2 r (0 : Fin 1)) = D' (ix2 r' (0 : Fin 1)))
    (hW : ∀ (k : Fin 512) (q : Fin 2560), Wt (ix2 k q) = Wt' (ix2 k q)) (hB : ∀ q : Fin 2560, Bs (ix1 q) = Bs' (ix1 q)) :
    rowsOutAt E D Wt Bs s r j = rowsOutAt E' D' Wt' Bs' s r' j := by
  unfold rowsOutAt gateSum
  simp only [hE, hD, hW, hB]

/-- The four input blocks at a point and the four arrays they are cut from, named at their literal types. -/
abbrev embBlk (c : Dev nD) (t : Fin cfg0.N) : Vec Ideal S768x512 .bf16 := iblk m c 0 t
abbrev durBlk (c : Dev nD) (t : Fin cfg0.N) : Vec Ideal S768x1 .f32 := iblk m c 1 t
abbrev wBlk (c : Dev nD) (t : Fin cfg0.N) : Vec Ideal S512x2560 .bf16 := iblk m c 2 t
abbrev bBlk (c : Dev nD) (t : Fin cfg0.N) : Vec Ideal S2560 .f32 := iblk m c 3 t
abbrev embArr (c : Dev nD) : S33024x512.Idx → EReal := V (F := Ideal) m c main_v34
abbrev durArr (c : Dev nD) : S33024x1.Idx → EReal := V (F := Ideal) m c main_v35
abbrev wArr (c : Dev nD) : S512x2560.Idx → EReal := V (F := Ideal) m c main_v20
abbrev bArr (c : Dev nD) : S2560.Idx → EReal := V (F := Ideal) m c main_v19

/-- Row r of the embedding block at point t is row t·768 + r of the array. -/
theorem embBlk_apply (c : Dev nD) (t : Fin cfg0.N) (r : Fin 768) (k : Fin 512) (R : Fin 33024)
    (hR : R.val = t.val * 768 + r.val) :
    embBlk m c t (ix2 r k) = embArr m c (ix2 R k) := by
  obtain ⟨e0, e1, -⟩ := index_facts t
  unfold embBlk iblk
  rw [View.read_apply]
  show V m c main_v34 _ = V m c main_v34 _
  congr 1
  funext a
  apply Fin.ext
  match a with
  | ⟨0, _⟩ => show win0_0.index t (0 : Fin 2) * 768 + 1 * r.val = R.val; omega
  | ⟨1, _⟩ => show win0_0.index t (1 : Fin 2) * 512 + 1 * k.val = k.val; omega

/-- Row r of the duration block at point t is row t·768 + r of the column. -/
theorem durBlk_apply (c : Dev nD) (t : Fin cfg0.N) (r : Fin 768) (R : Fin 33024)
    (hR : R.val = t.val * 768 + r.val) :
    durBlk m c t (ix2 r (0 : Fin 1)) = durArr m c (ix2 R (0 : Fin 1)) := by
  obtain ⟨-, -, e0, e1, -⟩ := index_facts t
  unfold durBlk iblk
  rw [View.read_apply]
  show V m c main_v35 _ = V m c main_v35 _
  congr 1
  funext a
  apply Fin.ext
  match a with
  | ⟨0, _⟩ => show win0_1.index t (0 : Fin 2) * 768 + 1 * r.val = R.val; omega
  | ⟨1, _⟩ => show win0_1.index t (1 : Fin 2) * 1 + 1 * 0 = 0; omega

/-- The weight block at every point is the whole weight matrix. -/
theorem wBlk_apply (c : Dev nD) (t : Fin cfg0.N) (k : Fin 512) (q : Fin 2560) :
    wBlk m c t (ix2 k q) = wArr m c (ix2 k q) := by
  obtain ⟨-, -, -, -, e0, e1, -⟩ := index_facts t
  unfold wBlk iblk
  rw [View.read_apply]
  show V m c main_v20 _ = V m c main_v20 _
  congr 1
  funext a
  apply Fin.ext
  match a with
  | ⟨0, _⟩ => show win0_2.index t (0 : Fin 2) * 512 + 1 * k.val = k.val; omega
  | ⟨1, _⟩ => show win0_2.index t (1 : Fin 2) * 2560 + 1 * q.val = q.val; omega

/-- The bias block at every point is the whole bias. -/
theorem bBlk_apply (c : Dev nD) (t : Fin cfg0.N) (q : Fin 2560) :
    bBlk m c t (ix1 q) = bArr m c (ix1 q) := by
  obtain ⟨-, -, -, -, -, -, e0, -⟩ := index_facts t
  unfold bBlk iblk
  rw [View.read_apply]
  show V m c main_v19 _ = V m c main_v19 _
  congr 1
  funext a
  apply Fin.ext
  match a with
  | ⟨0, _⟩ => show win0_3.index t (0 : Fin 1) * 2560 + 1 * q.val = q.val; omega

/-- The body's output block at point t, element (s, r, j), is the cell over the whole arrays at row t·768 + r. -/
theorem block_apply (c : Dev nD) (t : Fin cfg0.N) (s : Fin 5) (r : Fin 768) (j : Fin 512) (R : Fin 33024)
    (hR : R.val = t.val * 768 + r.val) :
    out0_4 (F := Ideal) (embBlk m c t) (durBlk m c t) (wBlk m c t) (bBlk m c t) (ix3 s r j)
      = rowsOutAt (n := 33024) (embArr m c) (durArr m c) (wArr m c) (bArr m c) s R j :=
  (Body.out0_4_apply (embBlk m c t) (durBlk m c t) (wBlk m c t) (bBlk m c t) s r j).trans
    (rowsOutAt_congr (embBlk m c t) (embArr m c) (durBlk m c t) (durArr m c) (wBlk m c t) (wArr m c) (bBlk m c t) (bArr m c)
      s r R j (fun k => embBlk_apply m c t r k R hR) (durBlk_apply m c t r R hR) (wBlk_apply m c t) (bBlk_apply m c t))

/-- What point t writes back is block t of the rows' outputs. -/
theorem flushed_eq (c : Dev nD) (t : Fin cfg0.N) :
    (dats (F := Ideal) m 0 c).flushed 4 t
      = ((cfg0.win 4).blk t).view.read (Elt Ideal)
          (rowsOut (n := 33024) (embArr m c) (durArr m c) (wArr m c) (bArr m c)) := by
  show (cfg0.win 4).cut (grid0.coords t) ((dats m 0 c).after 4 t) = _
  rw [after0_4]
  obtain ⟨-, -, -, -, -, -, -, e0, e1, e2⟩ := index_facts t
  have hN : t.val < 43 := Nat.lt_of_lt_of_eq t.isLt N_0
  funext y
  have hy0 : (y 0).val < 5 := (y 0).isLt
  have hy1 : (y 1).val < 768 := (y 1).isLt
  have hy2 : (y 2).val < 512 := (y 2).isLt
  have hx : (cfg0.win 4).xinj (grid0.coords t) y
      = ix3 (⟨(y 0).val, hy0⟩ : Fin 5) (⟨(y 1).val, hy1⟩ : Fin 768) (⟨(y 2).val, hy2⟩ : Fin 512) := by
    funext a; apply Fin.ext
    match a with
    | ⟨0, _⟩ => rfl
    | ⟨1, _⟩ => rfl
    | ⟨2, _⟩ => rfl
  have he : ((cfg0.win 4).blk t).view.emb y
      = ix3 (⟨(y 0).val, hy0⟩ : Fin 5) (⟨t.val * 768 + (y 1).val, by omega⟩ : Fin 33024) (⟨(y 2).val, hy2⟩ : Fin 512) := by
    funext a; apply Fin.ext
    match a with
    | ⟨0, _⟩ => show win0_4.index t (0 : Fin 3) * 5 + 1 * (y 0).val = (y 0).val; omega
    | ⟨1, _⟩ => show win0_4.index t (1 : Fin 3) * 768 + 1 * (y 1).val = t.val * 768 + (y 1).val; omega
    | ⟨2, _⟩ => show win0_4.index t (2 : Fin 3) * 512 + 1 * (y 2).val = (y 2).val; omega
  rw [View.read_apply]
  show out0_4 (F := Ideal) (embBlk m c t) (durBlk m c t) (wBlk m c t) (bBlk m c t) ((cfg0.win 4).xinj (grid0.coords t) y)
    = rowsOut (n := 33024) (embArr m c) (durArr m c) (wArr m c) (bArr m c) (((cfg0.win 4).blk t).view.emb y)
  rw [hx, he]
  exact block_apply m c t _ _ _ _ rfl

/-- An index of the output array is in point t's block iff each coordinate is in the block's range on its axis. -/
theorem mem_blk (t : Fin cfg0.N) (i : S5x33024x512.Idx) :
    i ∈ ((cfg0.win 4).blk t).view.set ↔ ∀ a : Fin 3, win0_4.index t a * S5x768x512.size a ≤ (i a).val
      ∧ (i a).val < win0_4.index t a * S5x768x512.size a + S5x768x512.size a := by
  show i ∈ ((View.whole main_v36).slice (win0_4.rect t)).set ↔ _
  rw [View.set_slice_whole, Rect.mem_set_unit]
  exact Iff.rfl

/-- Row R of the output lies in the block of point R / 768, and 43 · 768 = 33024. -/
theorem cover (i : S5x33024x512.Idx) :
    ∃ t : Fin cfg0.N, (cfg0.win 4).flush t = true ∧ i ∈ ((cfg0.win 4).blk t).view.set := by
  have hi0 : (i 0).val < 5 := (i 0).isLt
  have hi1 : (i 1).val < 33024 := (i 1).isLt
  have hi2 : (i 2).val < 512 := (i 2).isLt
  have hN : cfg0.N = 43 := N_0
  let t : Fin cfg0.N := ⟨(i 1).val / 768, by rw [hN]; omega⟩
  obtain ⟨-, -, -, -, -, -, -, e0, e1, e2⟩ := index_facts t
  have ht : t.val = (i 1).val / 768 := rfl
  refine ⟨t, flush0_4 t, ?_⟩
  rw [mem_blk]
  intro a
  match a with
  | ⟨0, _⟩ => show win0_4.index t (0 : Fin 3) * 5 ≤ (i 0).val ∧ (i 0).val < win0_4.index t (0 : Fin 3) * 5 + 5; omega
  | ⟨1, _⟩ => show win0_4.index t (1 : Fin 3) * 768 ≤ (i 1).val ∧ (i 1).val < win0_4.index t (1 : Fin 3) * 768 + 768; omega
  | ⟨2, _⟩ => show win0_4.index t (2 : Fin 3) * 512 ≤ (i 2).val ∧ (i 2).val < win0_4.index t (2 : Fin 3) * 512 + 512; omega

/-- The output array after the last grid point. -/
theorem final4 (c : Dev nD) :
    ((dats (F := Ideal) m 0 c).arrAt 4 cfg0.N : S5x33024x512.Idx → EReal)
      = rowsOut (n := 33024) (V (F := Ideal) m c main_v34) (V (F := Ideal) m c main_v35)
          (V (F := Ideal) m c main_v20) (V (F := Ideal) m c main_v19) :=
  (dats (F := Ideal) m 0 c).arrAt_eq_of_cover 4
    (rowsOut (n := 33024) (embArr m c) (durArr m c) (wArr m c) (bArr m c))
    (fun t _ => flushed_eq m c t) cover

end Cert.KernelIdeal.Array

end
-- ==== Proof.LibGather3.lean ====
/-
  The row gather whose start indices are an [e1 × e2 × 1] array, read at one element, with the two layout
  operations that go with it.

  The gather has the index vector on axis 2 of the start indices, one component, sent to operand axis 0,
  that axis collapsed, and result axis 2 an offset axis of full width.  Result element (p, q, c) reads its
  one start-index component at (p, q, 0), as a signed integer clamped into the operand; when the integer
  is a row number k < n the clamp does nothing and the element is the operand's (k, c).

  An [e1 × e2] array of index words becomes the [e1 × e2 × 1] array of start indices by a broadcast along a
  new last unit axis: the word at (p, q, 0) is the word at (p, q).  The [e1 × e2 × f] result becomes a matrix
  of e1·e2 rows by a reshape: row p·e2 + q of the matrix is the result's row (p, q).

  Each statement takes the dimension numbers' fields as hypotheses, so it applies to any record with those
  fields.
-/
import Idealize.ShloMosaic.PureOps.Ideal
import Idealize.ShloMosaic.Lib.ValueIdx
import Idealize.ShloMosaic.Lib.Pipeline.Value

noncomputable section

namespace Cert.Gcn.Gather3

open Idealize.ShloMosaic Idealize.ShloMosaic.ValueIdx

/-! ## Axes and coordinates of a rank-3 index -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- A coordinate of a rank-3 index on the axis numbered 0 is its first coordinate. -/
theorem coord3_of_val0 {a b c : ℕ} (j : (⟨3, ![a, b, c]⟩ : Shape).Idx) (X : Fin 3) (hX : X.val = 0) :
    (j X).val = (j 0).val := by
  have : X = 0 := Fin.ext hX
  subst this; rfl

/-- A coordinate of a rank-3 index on the axis numbered 1 is its second coordinate. -/
theorem coord3_of_val1 {a b c : ℕ} (j : (⟨3, ![a, b, c]⟩ : Shape).Idx) (X : Fin 3) (hX : X.val = 1) :
    (j X).val = (j 1).val := by
  have : X = 1 := Fin.ext hX
  subst this; rfl

/-- A coordinate of a rank-3 index on the axis numbered 2 is its third coordinate. -/
theorem coord3_of_val2 {a b c : ℕ} (j : (⟨3, ![a, b, c]⟩ : Shape).Idx) (X : Fin 3) (hX : X.val = 2) :
    (j X).val = (j 2).val := by
  have : X = 2 := Fin.ext hX
  subst this; rfl

/-- The list of the first two of three axes holds axis i at place i. -/
theorem getElem_01 (l : List (Fin 3)) (hl : l = [0, 1]) (i : ℕ) (hi : i < l.length) : (l[i]).val = i := by
  subst hl
  match i, hi with
  | 0, _ => rfl
  | 1, _ => rfl

/-! ## The start-index position -/

/-- Result element (p, q, c) reads its one start-index component at (p, q, 0). -/
theorem gather3_siIdx {s : Shape} {e1 e2 f : ℕ} (d : GatherDims s ⟨3, ![e1, e2, 1]⟩ ⟨3, ![e1, e2, f]⟩)
    (hod : d.offsetDims = [2]) (hivd : d.indexVectorDim = 2) (j : (⟨3, ![e1, e2, f]⟩ : Shape).Idx)
    (c : Fin d.startIndexMap.length) :
    d.siIdx j c = ix3 (n0 := e1) (n1 := e2) (n2 := 1) (j 0) (j 1) 0 := by
  have hbd : (d.batchDims : List (Fin 3)) = [0, 1] := by
    show (List.finRange 3).filter (fun x => decide (x ∉ d.offsetDims)) = _
    rw [hod]; rfl
  have hsk : (d.siKept : List (Fin 3)) = [0, 1] := by
    show (List.finRange 3).filter (fun x => decide (x.val ≠ d.indexVectorDim)) = _
    rw [hivd]; rfl
  funext b
  match b with
  | ⟨0, h0⟩ =>
    unfold GatherDims.siIdx
    rw [dif_neg (by rw [hivd]; simp)]
    unfold GatherDims.siCoord
    apply Fin.ext
    simp only [Fin.val_cast]
    refine coord3_of_val0 j _ ?_
    rw [getElem_01 _ hbd]
    show List.idxOf (⟨0, h0⟩ : Fin 3) (d.siKept : List (Fin 3)) = 0
    rw [hsk]; rfl
  | ⟨1, h1⟩ =>
    unfold GatherDims.siIdx
    rw [dif_neg (by rw [hivd]; simp)]
    unfold GatherDims.siCoord
    apply Fin.ext
    simp only [Fin.val_cast]
    refine coord3_of_val1 j _ ?_
    rw [getElem_01 _ hbd]
    show List.idxOf (⟨1, h1⟩ : Fin 3) (d.siKept : List (Fin 3)) = 1
    rw [hsk]; rfl
  | ⟨2, h2⟩ =>
    apply Fin.ext
    have hlt := (d.siIdx j c ⟨2, h2⟩).isLt
    have h3 : (⟨3, ![e1, e2, 1]⟩ : Shape).size ⟨2, h2⟩ = 1 := rfl
    show (d.siIdx j c ⟨2, h2⟩).val = 0
    omega

/-! ## The gather read at an element -/

/-- [n × f] operand, [e1 × e2 × 1] start indices, [e1 × e2 × f] result, the last result axis an offset axis
    of full width: when the index word at (p, q, 0), read signed, is a row k < n, result element (p, q, c) is
    the operand's element (k, c). -/
theorem gather3_apply {α : Type} {n f e1 e2 w : ℕ}
    (d : GatherDims ⟨2, ![n, f]⟩ ⟨3, ![e1, e2, 1]⟩ ⟨3, ![e1, e2, f]⟩)
    (hod : d.offsetDims = [2]) (hcoll : d.collapsedSliceDims = [0]) (hob : d.operandBatchingDims = [])
    (hsim : d.startIndexMap = [0]) (hivd : d.indexVectorDim = 2)
    (x : (⟨2, ![n, f]⟩ : Shape).Idx → α) (idx : IVec ⟨3, ![e1, e2, 1]⟩ w) (j : (⟨3, ![e1, e2, f]⟩ : Shape).Idx)
    (k : ℕ) (hk : k < n) (hidx : (idx (ix3 (j 0) (j 1) (0 : Fin 1))).toInt = (k : Int)) :
    Host.gather d x idx j = x (ix2 ⟨k, hk⟩ ⟨(j 2).val, (j 2).isLt⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 2).val, (j 2).isLt⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather3_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 2).val
    have hall : ∀ x ∈ d.offsetDims, x.val = 2 := by rw [hod]; simp
    rw [coord3_of_val2 j _ (hall _ (List.getElem_mem _))]
    omega

/-- The same, by coordinates. -/
theorem gather3_ix_apply {α : Type} {n f e1 e2 w : ℕ}
    (d : GatherDims ⟨2, ![n, f]⟩ ⟨3, ![e1, e2, 1]⟩ ⟨3, ![e1, e2, f]⟩)
    (hod : d.offsetDims = [2]) (hcoll : d.collapsedSliceDims = [0]) (hob : d.operandBatchingDims = [])
    (hsim : d.startIndexMap = [0]) (hivd : d.indexVectorDim = 2)
    (x : (⟨2, ![n, f]⟩ : Shape).Idx → α) (idx : IVec ⟨3, ![e1, e2, 1]⟩ w) (p : Fin e1) (q : Fin e2) (c : Fin f)
    (k : ℕ) (hk : k < n) (hidx : (idx (ix3 p q (0 : Fin 1))).toInt = (k : Int)) :
    Host.gather d x idx (ix3 p q c) = x (ix2 ⟨k, hk⟩ c) :=
  gather3_apply d hod hcoll hob hsim hivd x idx (ix3 p q c) k hk hidx

/-! ## The start indices from a matrix of words, and the result as a matrix of rows -/

variable {α : Type}

/-- A matrix given a new last unit axis by a broadcast reads, at (p, q, 0), the matrix at (p, q). -/
theorem broadcastInDim_ab_ab1_apply {a b : ℕ}
    (h : (⟨2, ![a, b]⟩ : Shape).BroadcastsInDim ⟨3, ![a, b, 1]⟩ ![0, 1])
    (x : (⟨2, ![a, b]⟩ : Shape).Idx → α) (p : Fin a) (q : Fin b) (u : Fin 1) :
    broadcastInDim ⟨3, ![a, b, 1]⟩ ![0, 1] h x (ix3 p q u) = x (ix2 p q) :=
  broadcastInDim_apply ![0, 1] h x _ _ (fun ax => by
    match ax with
    | ⟨0, _⟩ =>
      show p.val = if a = 1 then 0 else p.val
      split
      · have := p.isLt; omega
      · rfl
    | ⟨1, _⟩ =>
      show q.val = if b = 1 then 0 else q.val
      split
      · have := q.isLt; omega
      · rfl)

/-- An [a × b × c] array reshaped to a matrix of m rows reads, at (r, k) with r = p·b + q, the array at
    (p, q, k). -/
theorem shapeCast_abc_mc_apply {a b c m : ℕ} (x : (⟨3, ![a, b, c]⟩ : Shape).Idx → α)
    (h : (⟨3, ![a, b, c]⟩ : Shape).ShapeCasts ⟨2, ![m, c]⟩) (r : Fin m) (k : Fin c) (p : Fin a) (q : Fin b)
    (hr : r.val = p.val * b + q.val) :
    shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

end Cert.Gcn.Gather3

end
-- ==== Proof.LibGather3Clamp.lean ====
/-
  The row gather whose start indices are an [e1 × e2 × 1] array, read at one element with no hypothesis on the
  index word: result element (p, q, c) is the operand's element (r, c), where the row r is the word at (p, q, 0)
  read as a signed integer, a negative one taken as 0, clamped to the operand's last row.

  The statement takes the dimension numbers' fields as hypotheses, so it applies to any record with those fields.
-/
import Idealize.ShloMosaic.PureOps.Ideal
import Idealize.ShloMosaic.Lib.ValueIdx
import proofs.«428705_j18296560681638_3_alg».proof.Proof.LibGather3

noncomputable section

namespace Cert.DecayCell.Gather3Clamp

open Idealize.ShloMosaic Idealize.ShloMosaic.ValueIdx Cert.Gcn.Gather3

/-- [n × f] operand of n > 0 rows, [e1 × e2 × 1] start indices, [e1 × e2 × f] result, the last result axis an
    offset axis of full width: result element (p, q, c) is the operand's element (r, c), the row r the index word
    at (p, q, 0) read signed, as a natural number, clamped to the last row n − 1. -/
theorem gather3_clamp_apply {α : Type} {n f e1 e2 w : ℕ} (hn : 0 < n)
    (d : GatherDims ⟨2, ![n, f]⟩ ⟨3, ![e1, e2, 1]⟩ ⟨3, ![e1, e2, f]⟩)
    (hod : d.offsetDims = [2]) (hcoll : d.collapsedSliceDims = [0]) (hob : d.operandBatchingDims = [])
    (hsim : d.startIndexMap = [0]) (hivd : d.indexVectorDim = 2)
    (x : (⟨2, ![n, f]⟩ : Shape).Idx → α) (idx : IVec ⟨3, ![e1, e2, 1]⟩ w) (p : Fin e1) (q : Fin e2) (c : Fin f) :
    Host.gather d x idx (ix3 p q c)
      = x (ix2 ⟨min (idx (ix3 p q (0 : Fin 1))).toInt.toNat (n - 1), by omega⟩ c) := by
  unfold Host.gather
  congr 1
  funext a
  apply Fin.ext
  have hb : ∀ a : Fin 2, a ∉ d.operandBatchingDims := by intro a; rw [hob]; exact List.not_mem_nil
  show d.start (ix3 p q c) idx a + d.batchCoord (ix3 p q c) a + d.offCoord (ix3 p q c) a
    = (ix2 (⟨min (idx (ix3 p q (0 : Fin 1))).toInt.toNat (n - 1), by omega⟩ : Fin n) c a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather3_siIdx d hod hivd, hsl]
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + ((ix3 p q c) _).val = c.val
    have hall : ∀ x ∈ d.offsetDims, x.val = 2 := by rw [hod]; simp
    rw [coord3_of_val2 (ix3 p q c) _ (hall _ (List.getElem_mem _))]
    show 0 + 0 + c.val = c.val
    omega

end Cert.DecayCell.Gather3Clamp

end
-- ==== Proof.HostPreRows.lean ====
/-
  Two of the four arrays the kernel's windows stage, as the region finds them: the padded time-major embedding
  rows and the padded durations.

  Each is first written as the composed term of the host operations that made it, then read at an index.  For the
  embedding rows the start index of the gather is the event word clipped to [0, 1024] and then, if negative,
  wrapped around the table's 1025 rows; the clipped word is never negative, and the gather's own clamp to the last
  row agrees with the clip, so the row read is the one the word itself selects.
-/
import proofs.«428705_j18296560681638_3_alg».proof.Proof.Gen.KernelIdeal.Frame
import proofs.«428705_j18296560681638_3_alg».proof.Proof.Rows
import proofs.«428705_j18296560681638_3_alg».proof.Proof.LibGather3Clamp
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

namespace Cert.KernelIdeal.HostPreRows

open Idealize.ShloMosaic Idealize.ShloMosaic.TcCoe Idealize.ShloMosaic.ValueIdx Idealize.SL.Sem
open Idealize.ShloMosaic.StableHlo
open Cert.KernelIdeal Cert.KernelIdeal.Gen Cert.DecayCell
open Cert.Gcn.Gather3 Cert.DecayCell.Gather3Clamp

variable (m : (ℓ : Loc nD τ sig) → Buf (Elt Ideal) ℓ)

/-! ## Words -/

/-- The clip of a word to [0, 1024], by the sign and size of the word. -/
theorem clip_cases (w : BitVec 32) :
    (w.toInt < 0 ∧ IntOp.minsi 1024#32 (IntOp.maxsi 0#32 w) = 0#32)
      ∨ (0 ≤ w.toInt ∧ w.toInt ≤ 1024 ∧ IntOp.minsi 1024#32 (IntOp.maxsi 0#32 w) = w)
      ∨ (1024 < w.toInt ∧ IntOp.minsi 1024#32 (IntOp.maxsi 0#32 w) = 1024#32) := by
  have h0 : (0#32 : BitVec 32).toInt = 0 := by decide
  have h1024 : (1024#32 : BitVec 32).toInt = 1024 := by decide
  by_cases hneg : w.toInt < 0
  · left
    refine ⟨hneg, ?_⟩
    have hs : w.slt 0#32 = true := by simp only [BitVec.slt, h0, decide_eq_true_eq]; exact hneg
    unfold IntOp.maxsi
    rw [if_pos hs]
    decide
  · right
    have hs : ¬ (w.slt 0#32 = true) := by simp only [BitVec.slt, h0, decide_eq_true_eq]; exact hneg
    have hmax : IntOp.maxsi 0#32 w = w := by unfold IntOp.maxsi; rw [if_neg hs]
    by_cases hbig : 1024 < w.toInt
    · right
      refine ⟨hbig, ?_⟩
      rw [hmax]
      unfold IntOp.minsi
      rw [if_pos (by simp only [BitVec.slt, h1024, decide_eq_true_eq]; exact hbig)]
    · left
      refine ⟨by omega, by omega, ?_⟩
      rw [hmax]
      unfold IntOp.minsi
      rw [if_neg (by simp only [BitVec.slt, h1024, decide_eq_true_eq]; exact hbig)]

/-- The start index the gather receives for an event word: the word clipped to [0, 1024], a negative index
    then wrapped around the table's 1025 rows. -/
def clipSel (w : BitVec 32) : BitVec 32 :=
  Scalar.select (IntOp.cmpi .slt (IntOp.minsi 1024#32 (IntOp.maxsi 0#32 w)) 0#32)
    (IntOp.addi (IntOp.minsi 1024#32 (IntOp.maxsi 0#32 w)) 1025#32) (IntOp.minsi 1024#32 (IntOp.maxsi 0#32 w))

/-- It selects the same table row as the word itself: a negative word clips to 0 and a word past 1024 to 1024,
    which is what the row's own clamp does; the clipped word is never negative, so the wrap-around leaves it. -/
theorem rowOf_clipSel (w : BitVec 32) : rowOf (clipSel w) = rowOf w := by
  unfold clipSel
  rcases clip_cases w with ⟨hneg, hc⟩ | ⟨hnn, hle, hc⟩ | ⟨hbig, hc⟩
  · rw [hc, show Scalar.select (IntOp.cmpi .slt (0#32 : BitVec 32) 0#32) (IntOp.addi 0#32 1025#32) 0#32 = 0#32 from by decide]
    apply Fin.ext
    show min (0#32 : BitVec 32).toInt.toNat 1024 = min w.toInt.toNat 1024
    have h0 : (0#32 : BitVec 32).toInt = 0 := by decide
    rw [h0]
    omega
  · rw [hc]
    have h0 : (0#32 : BitVec 32).toInt = 0 := by decide
    have hs : w.slt 0#32 = false := by simp only [BitVec.slt, h0, decide_eq_false_iff_not]; omega
    unfold Scalar.select IntOp.cmpi
    simp only [hs]
    rfl
  · rw [hc, show Scalar.select (IntOp.cmpi .slt (1024#32 : BitVec 32) 0#32) (IntOp.addi 1024#32 1025#32) 1024#32 = 1024#32 from by decide]
    apply Fin.ext
    show min (1024#32 : BitVec 32).toInt.toNat 1024 = min w.toInt.toNat 1024
    have h1024 : (1024#32 : BitVec 32).toInt = 1024 := by decide
    rw [h1024]
    omega

/-! ## A pad of 256 rows after the last, read at an index -/
/-- A two-axis array padded with 256 rows after its last reads, at a row of the operand, the operand. -/
theorem pad_rows_inside {n f : ℕ} {α : Type} (x : (⟨2, ![n, f]⟩ : Shape).Idx → α) {u : Shape} (v : u.Idx → α)
    {N : ℕ} (h : (⟨2, ![n, f]⟩ : Shape).Pads (![0, 0] : Fin 2 → Nat) ![256, 0] ![0, 0] ⟨2, ![N, f]⟩) (hu : 0 < u.numel)
    (r : Fin N) (k : Fin f) (hr : r.val < n) :
    pad ⟨2, ![N, f]⟩ ![0, 0] ![256, 0] ![0, 0] x v h hu (ix2 r k) = x (ix2 (⟨r.val, hr⟩ : Fin n) k) :=
  pad_apply_of_inside _ _ _ x v h hu _ _ (fun a => by
    match a with
    | ⟨0, _⟩ => show r.val = 0 + r.val * (0 + 1); omega
    | ⟨1, _⟩ => show k.val = 0 + k.val * (0 + 1); omega)

/-- … and at a later row the padding value. -/
theorem pad_rows_outside {n f : ℕ} {α : Type} (x : (⟨2, ![n, f]⟩ : Shape).Idx → α) {u : Shape} (v : u.Idx → α)
    {N : ℕ} (h : (⟨2, ![n, f]⟩ : Shape).Pads (![0, 0] : Fin 2 → Nat) ![256, 0] ![0, 0] ⟨2, ![N, f]⟩) (hu : 0 < u.numel)
    (r : Fin N) (k : Fin f) (hr : ¬ r.val < n) :
    pad ⟨2, ![N, f]⟩ ![0, 0] ![256, 0] ![0, 0] x v h hu (ix2 r k) = v (Shape.Idx.first hu) :=
  pad_apply_of_not_inside _ _ _ x v h hu _ (0 : Fin 2) (fun hin => by
    have h3 := hin.2.2
    have h4 : (r.val - 0) / (0 + 1) < n := h3
    omega)

/-! ## The embedding rows -/

/-- The event words clipped to [0, 1024]. -/
def clipped (ids : S32x1024.Idx → BitVec 32) : S32x1024.Idx → BitVec 32 :=
  minsi (broadcastInDim S32x1024 ![] bcast_S_S32x1024 (constantI S_ 32 1024#32))
    (maxsi (broadcastInDim S32x1024 ![] bcast_S_S32x1024 (constantI S_ 32 0#32)) ids)

theorem clipped_apply (ids : S32x1024.Idx → BitVec 32) (i : S32x1024.Idx) :
    clipped ids i = IntOp.minsi 1024#32 (IntOp.maxsi 0#32 (ids i)) := rfl

/-- A matrix of index words with the negative ones wrapped around the table's 1025 rows. -/
def wrapped (T : S1024x32.Idx → BitVec 32) : S1024x32.Idx → BitVec 32 :=
  select (cmpi .slt T (broadcastInDim S1024x32 ![] bcast_S_S1024x32 (constantI S_ 32 0#32)))
    (addi T (broadcastInDim S1024x32 ![] bcast_S_S1024x32 (constantI S_ 32 1025#32))) T

theorem wrapped_apply (T : S1024x32.Idx → BitVec 32) (i : S1024x32.Idx) :
    wrapped T i = Scalar.select (IntOp.cmpi .slt (T i) 0#32) (IntOp.addi (T i) 1025#32) (T i) := rfl

/-- The gather's start indices: the clipped words, time-major, wrapped, with a last unit axis. -/
def startIdx (ids : S32x1024.Idx → BitVec 32) : S1024x32x1.Idx → BitVec 32 :=
  broadcastInDim S1024x32x1 ![0, 1] bcast_S1024x32_S1024x32x1_0_1
    (wrapped (transpose S1024x32 [1, 0] (clipped ids) transposes_S32x1024_S1024x32_1_0))

/-- At time t and batch b the start index is the clipped, wrapped event word at (b, t). -/
theorem startIdx_apply (ids : S32x1024.Idx → BitVec 32) (t : Fin 1024) (b : Fin 32) (u : Fin 1) :
    startIdx ids (ix3 t b u) = clipSel (ids (ix2 b t)) := by
  unfold startIdx
  refine (broadcastInDim_ab_ab1_apply _ _ t b u).trans ?_
  rw [wrapped_apply, transpose_ix2_apply, clipped_apply]
  rfl

/-- The embedding rows' array as the composed term of the operations that made it. -/
theorem V_emb_term (c : Dev nD) :
    (V (F := Ideal) m c main_v34 : S33024x512.Idx → EReal)
      = pad S33024x512 ![0, 0] ![256, 0] ![0, 0]
          (truncf (F := Ideal) .bf16
            (shapeCast S32768x512
              (Host.gather gather_S1025x512_S1024x32x1_S1024x32x512_2_0_n_n_0_2_1512
                (m ((c.tc : Thread nD τ).loc main_arg4) : S1025x512.Idx → EReal)
                (startIdx (m ((c.tc : Thread nD τ).loc main_arg0))))
              shapeCasts_S1024x32x512_S32768x512)
            bitsLt_bf16_f32)
          (sitofp (F := Ideal) .bf16 (constantI S_ 32 0#32)) pads_S32768x512_S33024x512_02560_000 h_S_ := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

/-- The table gathered at start indices reads, at (t, b, k), the table row the index word at (t, b) selects. -/
theorem gather_rowOf (tab : S1025x512.Idx → EReal) (idx : S1024x32x1.Idx → BitVec 32) (t : Fin 1024) (b : Fin 32)
    (k : Fin 512) :
    Host.gather gather_S1025x512_S1024x32x1_S1024x32x512_2_0_n_n_0_2_1512 tab idx (ix3 t b k)
      = tab (ix2 (rowOf (idx (ix3 t b (0 : Fin 1)))) k) :=
  gather3_clamp_apply (by decide) _ rfl rfl rfl rfl rfl tab idx t b k

/-- The composed operations on the event words and the table are the padded embedding rows. -/
theorem embTerm_eq (ids : S32x1024.Idx → BitVec 32) (tab : S1025x512.Idx → EReal) :
    pad S33024x512 ![0, 0] ![256, 0] ![0, 0]
        (truncf (F := Ideal) .bf16
          (shapeCast S32768x512
            (Host.gather gather_S1025x512_S1024x32x1_S1024x32x512_2_0_n_n_0_2_1512 tab (startIdx ids))
            shapeCasts_S1024x32x512_S32768x512)
          bitsLt_bf16_f32)
        (sitofp (F := Ideal) .bf16 (constantI S_ 32 0#32)) pads_S32768x512_S33024x512_02560_000 h_S_
      = embRows ids tab := by
  funext i
  obtain ⟨r, k, rfl⟩ : ∃ (r : Fin 33024) (k : Fin 512), i = ix2 r k := ⟨i 0, i 1, eq_ix2 i⟩
  unfold embRows
  by_cases h : r.val < 32768
  · rw [dif_pos (show ((ix2 r k : (⟨2, ![33024, 512]⟩ : Shape).Idx) 0).val < 32768 from h)]
    refine (pad_rows_inside _ _ _ _ r k h).trans ?_
    refine (truncf_apply (φ := .f32) (ψ := .bf16) _ bitsLt_bf16_f32 _).trans ?_
    refine (shapeCast_abc_mc_apply _ _ (⟨r.val, h⟩ : Fin 32768) k (⟨r.val / 32, by omega⟩ : Fin 1024)
      (⟨r.val % 32, Nat.mod_lt _ (by decide)⟩ : Fin 32) (by show r.val = r.val / 32 * 32 + r.val % 32; omega)).trans ?_
    refine (gather_rowOf _ _ _ _ _).trans ?_
    rw [startIdx_apply, rowOf_clipSel]
  · rw [dif_neg (show ¬ ((ix2 r k : (⟨2, ![33024, 512]⟩ : Shape).Idx) 0).val < 32768 from h)]
    refine (pad_rows_outside _ _ _ _ r k h).trans ?_
    exact sitofp_zero (φ := .bf16)

/-! ## The durations -/

/-- The durations' array as the composed term of the operations that made it. -/
theorem V_dur_term (c : Dev nD) :
    (V (F := Ideal) m c main_v35 : S33024x1.Idx → EReal)
      = pad S33024x1 ![0, 0] ![256, 0] ![0, 0]
          (shapeCast S32768x1
            (transpose S1024x32 [1, 0] (m ((c.tc : Thread nD τ).loc main_arg1) : S32x1024.Idx → EReal) transposes_S32x1024_S1024x32_1_0)
            shapeCasts_S1024x32_S32768x1)
          (sitofp (F := Ideal) .f32 (constantI S_ 32 0#32)) pads_S32768x1_S33024x1_02560_000 h_S_ := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

/-- The durations transposed, flattened time-major and padded are the padded duration column. -/
theorem durTerm_eq (dur : S32x1024.Idx → EReal) :
    pad S33024x1 ![0, 0] ![256, 0] ![0, 0]
        (shapeCast S32768x1 (transpose S1024x32 [1, 0] dur transposes_S32x1024_S1024x32_1_0) shapeCasts_S1024x32_S32768x1)
        (sitofp (F := Ideal) .f32 (constantI S_ 32 0#32)) pads_S32768x1_S33024x1_02560_000 h_S_
      = durRows dur := by
  funext i
  obtain ⟨r, u, rfl⟩ : ∃ (r : Fin 33024) (u : Fin 1), i = ix2 r u := ⟨i 0, i 1, eq_ix2 i⟩
  unfold durRows
  by_cases h : r.val < 32768
  · rw [dif_pos (show ((ix2 r u : (⟨2, ![33024, 1]⟩ : Shape).Idx) 0).val < 32768 from h)]
    refine (pad_rows_inside _ _ _ _ r u h).trans ?_
    refine (shapeCast_apply _ _ _ (ix2 (⟨r.val / 32, by omega⟩ : Fin 1024) (⟨r.val % 32, Nat.mod_lt _ (by decide)⟩ : Fin 32)) ?_).trans ?_
    · rw [Shape.rowMajor_val_two, Shape.rowMajor_val_two]
      show r.val / 32 * 32 + r.val % 32 = r.val * 1 + u.val
      have := u.isLt
      omega
    · exact transpose_ix2_apply _ _ _ _
  · rw [dif_neg (show ¬ ((ix2 r u : (⟨2, ![33024, 1]⟩ : Shape).Idx) 0).val < 32768 from h)]
    refine (pad_rows_outside _ _ _ _ r u h).trans ?_
    exact sitofp_zero (φ := .f32)

/-! ## The two arrays -/

/-- The embedding rows: the gather of the table at the clipped, transposed event words, flattened time-major and
    padded with zero rows. The clip to [0, 1024] followed by the gather's own clamp selects the row `rowOf` names. -/
theorem V_emb (c : Dev nD) :
    (V (F := Ideal) m c main_v34 : S33024x512.Idx → EReal)
      = embRows (m ((c.tc : Thread nD τ).loc main_arg0)) (m ((c.tc : Thread nD τ).loc main_arg4)) := by
  exact (V_emb_term m c).trans (embTerm_eq _ _)

/-- The durations, transposed, flattened time-major into one column and padded with zeros. -/
theorem V_dur (c : Dev nD) :
    (V (F := Ideal) m c main_v35 : S33024x1.Idx → EReal) = durRows (m ((c.tc : Thread nD τ).loc main_arg1)) := by
  exact (V_dur_term m c).trans (durTerm_eq _)

end Cert.KernelIdeal.HostPreRows

end
-- ==== Proof.LibGatherCol3.lean ====
/-
  The gather of whole matrices out of a stack, read at one element, and the reshape that makes the stack.

  The operand is a stack of n matrices, [n × f × g]; the start indices are an [e × 1] column (the index vector on
  axis 1, one component, sent to operand axis 0, that axis collapsed), and result axes 1 and 2 are offset axes of
  full width.  Result element (p, a, b) is then the operand's element (r, a, b), where the matrix number r is

      min (toNat (idx[p, 0] read as a signed integer)) (n − 1):

  a negative word reads matrix 0, a word past the last matrix reads matrix n − 1, and a word that is a matrix
  number reads that matrix.  No hypothesis is made on the index words, and the statement takes the dimension
  numbers' fields as hypotheses, so it applies to any record with those fields.

  A matrix of m rows of length c cut into a stack of a matrices of b rows each reads, at (p, q, k), the matrix at
  (p·b + q, k); and the stack laid out again as a matrix of m rows reads, at (p·b + q, k), the stack at (p, q, k).
-/
import Idealize.ShloMosaic.PureOps.Ideal
import Idealize.ShloMosaic.Lib.ValueIdx
import Idealize.ShloMosaic.Lib.Pipeline.Value

noncomputable section

namespace Cert.DecayCell.GatherCol3

open Idealize.ShloMosaic Idealize.ShloMosaic.ValueIdx

variable {α : Type}

/-! ## Axes of a rank-3 array -/

/-- A position on an axis of three places is the first, the second or the third. -/
theorem fin3_cases : ∀ a : Fin 3, a = 0 ∨ a = 1 ∨ a = 2 := by decide

/-- The axes a shape keeps are the ones not listed. -/
theorem mem_kept {s : Shape} (axes : List (Fin s.rank)) (a : Fin s.rank) : a ∈ s.kept axes ↔ a ∉ axes := by
  simp [Shape.kept, List.mem_filter, List.mem_finRange]

/-- A coordinate of a rank-3 index on the axis numbered 0 is its first coordinate. -/
theorem coord3_of_val0 {a b c : ℕ} (j : (⟨3, ![a, b, c]⟩ : Shape).Idx) (X : Fin 3) (hX : X.val = 0) :
    (j X).val = (j 0).val := by
  have : X = 0 := Fin.ext hX
  subst this; rfl

/-! ## The offset coordinate of a gather, by the position of the axis among the kept ones -/

/-- On a kept operand axis the offset coordinate is the result index's coordinate on the offset axis standing at
    the same position in its list as the operand axis stands among the kept ones. -/
theorem offCoord_eq_of {s si t : Shape} (d : GatherDims s si t) (j : t.Idx) (a : Fin s.rank) (X : Fin t.rank)
    (ha : a ∈ d.sKept) (hX : d.offsetDims[d.sKept.idxOf a]? = some X) : d.offCoord j a = (j X).val := by
  unfold GatherDims.offCoord
  rw [dif_pos ha]
  obtain ⟨h1, h2⟩ := List.getElem?_eq_some_iff.mp hX
  exact congrArg (fun z => (j z).val) h2

/-! ## The gather -/

/-- Result element (p, a, b) reads its one start-index component at (p, 0). -/
theorem gatherCol3_siIdx {s : Shape} {e f g : ℕ} (d : GatherDims s ⟨2, ![e, 1]⟩ ⟨3, ![e, f, g]⟩)
    (hod : d.offsetDims = [1, 2]) (hivd : d.indexVectorDim = 1) (j : (⟨3, ![e, f, g]⟩ : Shape).Idx)
    (c : Fin d.startIndexMap.length) :
    d.siIdx j c = ix2 (n0 := e) (n1 := 1) (j 0) 0 := by
  have hbd : ∀ x ∈ d.batchDims, x.val = 0 := by
    intro x hx
    rw [mem_kept, hod] at hx
    rcases fin3_cases x with rfl | rfl | rfl
    · rfl
    · exact absurd (by simp) hx
    · exact absurd (by simp) hx
  funext b
  match b with
  | ⟨0, _⟩ =>
    unfold GatherDims.siIdx
    rw [dif_neg (by rw [hivd]; simp)]
    unfold GatherDims.siCoord
    apply Fin.ext
    simp only [Fin.val_cast]
    exact coord3_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- [n × f × g] operand of n > 0 matrices, [e × 1] start indices, [e × f × g] result, axes 1 and 2 offset axes of
    full width: result element (p, a, b) is the operand's element (r, a, b), where the matrix number r is the index
    word at (p, 0) read signed, as a natural number, clamped to the last matrix n − 1. -/
theorem gatherCol3_clamp_apply {n f g e w : ℕ} (hn : 0 < n)
    (d : GatherDims ⟨3, ![n, f, g]⟩ ⟨2, ![e, 1]⟩ ⟨3, ![e, f, g]⟩)
    (hod : d.offsetDims = [1, 2]) (hcoll : d.collapsedSliceDims = [0]) (hob : d.operandBatchingDims = [])
    (hsim : d.startIndexMap = [0]) (hivd : d.indexVectorDim = 1)
    (x : (⟨3, ![n, f, g]⟩ : Shape).Idx → α) (idx : IVec ⟨2, ![e, 1]⟩ w) (p : Fin e) (a : Fin f) (b : Fin g) :
    Host.gather d x idx (ix3 p a b)
      = x (ix3 ⟨min (idx (ix2 p (0 : Fin 1))).toInt.toNat (n - 1), by omega⟩ a b) := by
  unfold Host.gather
  congr 1
  funext ax
  apply Fin.ext
  have hb : ∀ ax : Fin 3, ax ∉ d.operandBatchingDims := by intro ax; rw [hob]; exact List.not_mem_nil
  have hsk : d.sKept = [1, 2] := by
    unfold GatherDims.sKept
    rw [hcoll, hob]
    rfl
  show d.start (ix3 p a b) idx ax + d.batchCoord (ix3 p a b) ax + d.offCoord (ix3 p a b) ax
    = (ix3 (⟨min (idx (ix2 p (0 : Fin 1))).toInt.toNat (n - 1), by omega⟩ : Fin n) a b ax).val
  rw [GatherDims.batchCoord_eq_zero _ _ _ (hb ax)]
  rcases fin3_cases ax with rfl | rfl | rfl
  · have hkp : (0 : Fin 3) ∉ d.sKept := by rw [hsk]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gatherCol3_siIdx d hod hivd, hsl]
    rfl
  · have hkp : (1 : Fin 3) ∈ d.sKept := by rw [hsk]; simp
    have hm : (1 : Fin 3) ∉ d.startIndexMap := by rw [hsim]; simp
    have hX : d.offsetDims[d.sKept.idxOf (1 : Fin 3)]? = some 1 := by rw [hsk, hod]; rfl
    rw [offCoord_eq_of d _ _ 1 hkp hX]
    unfold GatherDims.start
    rw [dif_neg hm]
    show 0 + 0 + a.val = a.val
    omega
  · have hkp : (2 : Fin 3) ∈ d.sKept := by rw [hsk]; simp
    have hm : (2 : Fin 3) ∉ d.startIndexMap := by rw [hsim]; simp
    have hX : d.offsetDims[d.sKept.idxOf (2 : Fin 3)]? = some 2 := by rw [hsk, hod]; rfl
    rw [offCoord_eq_of d _ _ 2 hkp hX]
    unfold GatherDims.start
    rw [dif_neg hm]
    show 0 + 0 + b.val = b.val
    omega

/-! ## A matrix cut into a stack of matrices, and the stack laid out as a matrix again -/

/-- A matrix of m rows cut into a stack of a matrices of b rows reads, at (p, q, k), the matrix at (r, k) with
    r = p·b + q. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (k : Fin c) (r : Fin m)
    (hr : r.val = p.val * b + q.val) :
    shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- A stack of a matrices of b rows laid out as a matrix of m rows reads, at (r, k) with r = p·b + q, the stack at
    (p, q, k). -/
theorem shapeCast_abc_mc_apply {a b c m : ℕ} (x : (⟨3, ![a, b, c]⟩ : Shape).Idx → α)
    (h : (⟨3, ![a, b, c]⟩ : Shape).ShapeCasts ⟨2, ![m, c]⟩) (r : Fin m) (k : Fin c) (p : Fin a) (q : Fin b)
    (hr : r.val = p.val * b + q.val) :
    shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

end Cert.DecayCell.GatherCol3

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibGatherClamp.lean ====
/-
  The one-index gathers read at one element, whatever the start index.

  A gather whose start indices are an [e × 1] column (the index vector on axis 1, one component, sent to operand
  axis 0, that axis collapsed) reads, for result row p, the operand row

      min (toNat (idx[p, 0] read as a signed integer)) (n − 1):

  a negative word reads row 0, a word past the last row reads row n − 1, and a word that is a row number reads that
  row. For a rank-1 operand the result element p is that element of the operand; for an [n × f] operand whose second
  axis is an offset axis of full width, result element (p, c) is the operand's element (that row, c).

  No hypothesis is made on the index words. Each statement takes the dimension numbers' fields as hypotheses, so it
  applies to any record with those fields.
-/
import Idealize.ShloMosaic.PureOps.Ideal
import Idealize.ShloMosaic.Lib.ValueIdx
import proofs.«428705_j18296560681638_3_alg».proof.Proof.LibIndexMaps

noncomputable section

namespace Cert.Gcn.GatherClamp

open Idealize.ShloMosaic Idealize.ShloMosaic.ValueIdx Cert.Gcn.IndexMaps

/-- Rank-1 operand of n > 0 elements, [e × 1] start indices, rank-1 result: result element p is the operand's
    element at the index word at (p, 0) read signed, as a natural number, clamped to the last position n − 1. -/
theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p) = x (ix1 ⟨min (idx (ix2 p (0 : Fin 1))).toInt.toNat (n - 1), by omega⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start (ix1 p) idx 0 + d.batchCoord (ix1 p) 0 + d.offCoord (ix1 p) 0
    = min (idx (ix2 p (0 : Fin 1))).toInt.toNat (n - 1)
  rw [GatherDims.batchCoord_eq_zero _ _ _ hb, GatherDims.offCoord_eq_zero _ _ _ hkp]
  unfold GatherDims.start
  rw [dif_pos hm, gather_siIdx_rank1 d hivd (ix1 p) _ _ (0 : Fin 1) hi, hsl]
  rfl

/-- [n × f] operand of n > 0 rows, [e × 1] start indices, [e × f] result, the second axis an offset axis of full
    width: result element (p, c) is the operand's element (r, c), where the row r is the index word at (p, 0) read
    signed, as a natural number, clamped to the last row n − 1. -/
theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c) = x (ix2 ⟨min (idx (ix2 p (0 : Fin 1))).toInt.toNat (n - 1), by omega⟩ c) := by
  unfold Host.gather
  congr 1
  funext a
  apply Fin.ext
  have hb : ∀ a : Fin 2, a ∉ d.operandBatchingDims := by intro a; rw [hob]; exact List.not_mem_nil
  show d.start (ix2 p c) idx a + d.batchCoord (ix2 p c) a + d.offCoord (ix2 p c) a
    = (ix2 (⟨min (idx (ix2 p (0 : Fin 1))).toInt.toNat (n - 1), by omega⟩ : Fin n) c a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + ((ix2 p c) _).val = c.val
    have hall : ∀ x ∈ d.offsetDims, x.val = 1 := by rw [hod]; simp
    rw [coord_of_val1 (ix2 p c) _ (hall _ (List.getElem_mem _))]
    show 0 + 0 + c.val = c.val
    omega

end Cert.Gcn.GatherClamp

end
-- ==== Proof.LibLayoutReads.lean ====
/-
  Layout operations of index vectors, read at one element given by its coordinates.

  A vector of n entries cut from position o on reads, at position j, the source at position o + j.  A
  matrix of a rows and b columns and the vector of its a·b entries laid row after row are the same
  numbers: entry (i, j) of the matrix is entry i·b + j of the vector, whichever of the two is the
  reshape of the other.  A vector made a column, by a reshape or by a broadcast along a new unit axis,
  reads at (i, 0) the vector's entry i.  Three vectors laid end to end read, at a position, the first
  vector there if the position is below its length, else the second at the position less the first's
  length if that is below the second's length, else the third at the position less both lengths.  Two
  matrices of equal width stacked read, at row r, the upper matrix's row r if r is below its height,
  else the lower matrix's row r less that height.
-/
import Idealize.ShloMosaic.Lib.ValueLayout

namespace Cert.Gcn.LayoutReads

open Idealize.ShloMosaic Idealize.ShloMosaic.ValueIdx

variable {α : Type}

/-! ## A vector cut from a position on -/

/-- A vector cut from `o` on reads, at `j`, the source at `k = o + j`. -/
theorem slice1_apply {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-! ## A matrix and the vector of its entries laid row after row -/

/-- The vector of a matrix's entries reads, at position `k = i·b + j`, the matrix at `(i, j)`. -/
theorem shapeCast_ab_n_apply {a b n : Nat} (x : (⟨2, ![a, b]⟩ : Shape).Idx → α)
    (h : (⟨2, ![a, b]⟩ : Shape).ShapeCasts ⟨1, ![n]⟩) (k : Fin n) (i : Fin a) (j : Fin b)
    (hk : k.val = i.val * b + j.val) :
    shapeCast ⟨1, ![n]⟩ x h (ix1 k) = x (ix2 i j) :=
  shapeCast_apply x h _ _ (by
    rw [Shape.rowMajor_val_two, Shape.rowMajor_val_one]
    show i.val * b + j.val = k.val
    exact hk.symm)

/-- A vector folded into rows of length `b` reads, at `(i, j)`, the vector at position `k = i·b + j`. -/
theorem shapeCast_n_ab_apply {a b n : Nat} (x : (⟨1, ![n]⟩ : Shape).Idx → α)
    (h : (⟨1, ![n]⟩ : Shape).ShapeCasts ⟨2, ![a, b]⟩) (i : Fin a) (j : Fin b) (k : Fin n)
    (hk : k.val = i.val * b + j.val) :
    shapeCast ⟨2, ![a, b]⟩ x h (ix2 i j) = x (ix1 k) :=
  shapeCast_apply x h _ _ (by
    rw [Shape.rowMajor_val_two, Shape.rowMajor_val_one]
    show k.val = i.val * b + j.val
    exact hk)

/-- A vector made a column by a reshape reads, at `(i, 0)`, the vector's entry `i`. -/
theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_n_ab_apply x h i u i (by have := u.isLt; omega)

/-- A vector made a column by a broadcast along a new unit axis reads, at `(i, 0)`, the vector's entry `i`. -/
theorem broadcastInDim_a_a1_apply {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x _ _ (fun ax => by
    match ax with
    | ⟨0, _⟩ =>
      show i.val = if a = 1 then 0 else i.val
      split
      · have := i.isLt; omega
      · rfl)

/-! ## Three vectors laid end to end -/

section Concat3
variable {n1 n2 n3 n : Nat} (x1 : (⟨1, ![n1]⟩ : Shape).Idx → α) (x2 : (⟨1, ![n2]⟩ : Shape).Idx → α)
  (x3 : (⟨1, ![n3]⟩ : Shape).Idx → α)
  (h : Shape.Concatenates [(⟨1, ![n1]⟩ : Shape), ⟨1, ![n2]⟩, ⟨1, ![n3]⟩] ⟨1, ![n]⟩ 0)

/-- Below the first length: the first vector at the same position. -/
theorem concat3_fst_apply (k : Fin n) (i : Fin n1) (hk : k.val = i.val) :
    concatenate ⟨1, ![n]⟩ 0 [⟨⟨1, ![n1]⟩, x1⟩, ⟨⟨1, ![n2]⟩, x2⟩, ⟨⟨1, ![n3]⟩, x3⟩] h (ix1 k) = x1 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    0 (by simp) ⟨1, ![n1]⟩ x1 rfl rfl 0 rfl (ix1 i)
    (fun b hb => absurd (Subsingleton.elim _ _) hb)
    (by show 0 + i.val = k.val; omega)

/-- From the first length on and below the first two: the second vector at the position less the first length. -/
theorem concat3_snd_apply (k : Fin n) (i : Fin n2) (hk : k.val = n1 + i.val) :
    concatenate ⟨1, ![n]⟩ 0 [⟨⟨1, ![n1]⟩, x1⟩, ⟨⟨1, ![n2]⟩, x2⟩, ⟨⟨1, ![n3]⟩, x3⟩] h (ix1 k) = x2 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    1 (by simp) ⟨1, ![n2]⟩ x2 rfl rfl n1 (by simp) (ix1 i)
    (fun b hb => absurd (Subsingleton.elim _ _) hb)
    (by show n1 + i.val = k.val; omega)

/-- From the first two lengths on: the third vector at the position less both. -/
theorem concat3_thd_apply (k : Fin n) (i : Fin n3) (hk : k.val = n1 + n2 + i.val) :
    concatenate ⟨1, ![n]⟩ 0 [⟨⟨1, ![n1]⟩, x1⟩, ⟨⟨1, ![n2]⟩, x2⟩, ⟨⟨1, ![n3]⟩, x3⟩] h (ix1 k) = x3 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    2 (by simp) ⟨1, ![n3]⟩ x3 rfl rfl (n1 + n2) (by simp) (ix1 i)
    (fun b hb => absurd (Subsingleton.elim _ _) hb)
    (by show n1 + n2 + i.val = k.val; omega)

end Concat3

/-! ## Two matrices of one width stacked -/

section Stack2
variable {m1 m2 m f : Nat} (x1 : (⟨2, ![m1, f]⟩ : Shape).Idx → α) (x2 : (⟨2, ![m2, f]⟩ : Shape).Idx → α)
  (h : Shape.Concatenates [(⟨2, ![m1, f]⟩ : Shape), ⟨2, ![m2, f]⟩] ⟨2, ![m, f]⟩ 0)

/-- A row below the upper height: the upper matrix's row. -/
theorem stack2_top_apply (r : Fin m) (c : Fin f) (i : Fin m1) (hr : r.val = i.val) :
    concatenate ⟨2, ![m, f]⟩ 0 [⟨⟨2, ![m1, f]⟩, x1⟩, ⟨⟨2, ![m2, f]⟩, x2⟩] h (ix2 r c) = x1 (ix2 i c) :=
  concatenate_pair_apply_left (0 : Fin 2) x1 x2 h (ix2 r c) rfl (ix2 i c) (fun b => by
    match b with
    | ⟨0, _⟩ => exact hr.symm
    | ⟨1, _⟩ => rfl)

/-- A row from the upper height on: the lower matrix's row, the upper height less. -/
theorem stack2_bot_apply (r : Fin m) (c : Fin f) (i : Fin m2) (hr : r.val = m1 + i.val) :
    concatenate ⟨2, ![m, f]⟩ 0 [⟨⟨2, ![m1, f]⟩, x1⟩, ⟨⟨2, ![m2, f]⟩, x2⟩] h (ix2 r c) = x2 (ix2 i c) :=
  concatenate_pair_apply_right (0 : Fin 2) x1 x2 h (ix2 r c) rfl rfl (ix2 i c) (fun b hb => by
    match b, hb with
    | ⟨0, _⟩, hb => exact absurd rfl hb
    | ⟨1, _⟩, _ => rfl)
    (by show i.val + m1 = r.val; omega)

end Stack2

end Cert.Gcn.LayoutReads
-- ==== Proof.HostPreWeights.lean ====
/-
  The other two staged arrays, as the region finds them: the selected, transposed weights and the selected bias.

  The host takes the first 512 columns of the weight matrix, cuts its 3584 rows into seven blocks of 512, picks
  blocks 0, 2, 3, 4 and 6 by a gather whose index words are that literal table (none is negative, so the host's
  treatment of negative indices leaves it alone, and each is below 7, so the gather's clamp does nothing), lays
  the five blocks out as 2560 rows and transposes: entry (k, p·512 + q) of the result is entry ((sel p)·512 + q, k)
  of the weight matrix.  The bias goes the same way without the transpose.
-/
import proofs.«428705_j18296560681638_3_alg».proof.Proof.Gen.KernelIdeal.Frame
import proofs.«428705_j18296560681638_3_alg».proof.Proof.Rows
import proofs.«428705_j18296560681638_3_alg».proof.Proof.LibGatherCol3
import proofs.«428705_j18296560681638_3_alg».proof.Proof.LibGatherClamp
import proofs.«428705_j18296560681638_3_alg».proof.Proof.LibLayoutReads
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostPreWeights

open Idealize.ShloMosaic Idealize.ShloMosaic.TcCoe Idealize.ShloMosaic.ValueIdx Idealize.SL.Sem
open Cert.KernelIdeal Cert.KernelIdeal.Gen Cert.DecayCell

variable (m : (ℓ : Loc nD τ sig) → Buf (Elt Ideal) ℓ)

/-! ## The block numbers -/

/-- The table of block numbers 0, 2, 3, 4, 6, as index words. -/
def blockWords : S5.Idx → BitVec 32 := fun i => lit0 (S5.rowMajor i)

/-- The block numbers after the host's treatment of negative indices (a negative word has 7 added). -/
def normWords : S5.Idx → BitVec 32 :=
  select (cmpi .slt blockWords (broadcastInDim S5 ![] bcast_S_S5 (constantI S_ 32 0#32)))
    (addi blockWords (broadcastInDim S5 ![] bcast_S_S5 (constantI S_ 32 7#32))) blockWords

theorem blockWords_apply (p : Fin 5) : blockWords (ix1 p) = lit0 p := by
  unfold blockWords
  congr 1
  apply Fin.ext
  rw [Shape.rowMajor_val_one]

/-- No block number is negative: the treatment leaves the table as it is. -/
theorem normWords_apply (p : Fin 5) : normWords (ix1 p) = lit0 p := by
  show Scalar.select (IntOp.cmpi .slt (blockWords (ix1 p)) 0#32) (IntOp.addi (blockWords (ix1 p)) 7#32)
    (blockWords (ix1 p)) = lit0 p
  rw [blockWords_apply]
  revert p
  decide

/-- Each word, read as a signed integer, is the block number itself, and below 7. -/
theorem word_block : ∀ p : Fin 5, min (lit0 p).toInt.toNat (7 - 1) = (sel p).val := by decide

/-- The table as a column reads, at (p, 0), the word p. -/
theorem colWords_apply (p : Fin 5) (u : Fin 1) :
    broadcastInDim S5x1 ![0] bcast_S5_S5x1_0 normWords (ix2 p u) = lit0 p := by
  have h : broadcastInDim S5x1 ![0] bcast_S5_S5x1_0 normWords (ix2 p u) = normWords (ix1 p) :=
    broadcastInDim_apply (s := S5) (t := S5x1) ![0] bcast_S5_S5x1_0 normWords (ix2 p u) (ix1 p) (fun ax => by
      match ax with
      | ⟨0, _⟩ => rfl)
  rw [h, normWords_apply]

/-! ## The weights -/

/-- The staged weights as the host operations compose them, over any weight matrix. -/
def stagedW (W : S3584x1024.Idx → EReal) : S512x2560.Idx → EReal :=
  truncf (F := Ideal) .bf16
    (transpose S512x2560 [1, 0]
      (shapeCast S2560x512
        (Host.gather gather_S7x512x512_S5x1_S5x512x512_12_0_n_n_0_1_1512512
          (shapeCast S7x512x512 (extractStridedSlice S3584x512 ![0, 0] W slices_S3584x1024_S3584x512_0_0)
            shapeCasts_S3584x512_S7x512x512)
          (broadcastInDim S5x1 ![0] bcast_S5_S5x1_0 normWords))
        shapeCasts_S5x512x512_S2560x512)
      transposes_S2560x512_S512x2560_1_0)
    bitsLt_bf16_f32

theorem V_w_term (c : Dev nD) :
    (V (F := Ideal) m c main_v20 : S512x2560.Idx → EReal) = stagedW (m ((c.tc : Thread nD τ).loc main_arg2)) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

/-- The first 512 columns of the weight matrix cut into seven blocks of 512 rows: entry (g, j, k) is entry
    (g·512 + j, k) of the matrix. -/
theorem blocks_apply (W : S3584x1024.Idx → EReal) (g : Fin 7) (j k : Fin 512) :
    shapeCast S7x512x512 (extractStridedSlice S3584x512 ![0, 0] W slices_S3584x1024_S3584x512_0_0)
      shapeCasts_S3584x512_S7x512x512 (ix3 g j k) = W (ix2 (gateRow g j) (firstHalf k)) := by
  refine (Cert.DecayCell.GatherCol3.shapeCast_mc_abc_apply _ shapeCasts_S3584x512_S7x512x512 g j k (gateRow g j) rfl).trans ?_
  exact slice2_axis1_apply 0 W slices_S3584x1024_S3584x512_0_0 (gateRow g j) k (firstHalf k)
    (by show k.val = 0 + k.val; omega)

/-- The staged weights read at (k, r), r = p·512 + q: the weight matrix at row (sel p)·512 + q, column k. -/
theorem stagedW_apply (W : S3584x1024.Idx → EReal) (k : Fin 512) (r : Fin 2560) (p : Fin 5) (q : Fin 512)
    (hr : r.val = p.val * 512 + q.val) :
    stagedW W (ix2 k r) = W (ix2 (gateRow (sel p) q) (firstHalf k)) := by
  unfold stagedW
  rw [truncf_apply]
  refine (transpose_ix2_apply _ transposes_S2560x512_S512x2560_1_0 k r).trans ?_
  refine (Cert.DecayCell.GatherCol3.shapeCast_abc_mc_apply _ shapeCasts_S5x512x512_S2560x512 r k p q hr).trans ?_
  refine (Cert.DecayCell.GatherCol3.gatherCol3_clamp_apply (by decide) gather_S7x512x512_S5x1_S5x512x512_12_0_n_n_0_1_1512512
    rfl rfl rfl rfl rfl _ _ p q k).trans ?_
  refine (blocks_apply W _ q k).trans ?_
  have hg : min ((broadcastInDim S5x1 ![0] bcast_S5_S5x1_0 normWords) (ix2 p (0 : Fin 1))).toInt.toNat (7 - 1)
      = (sel p).val := by
    rw [colWords_apply]
    exact word_block p
  exact congrArg (fun G => W (ix2 (gateRow G q) (firstHalf k))) (Fin.ext hg)

/-- The weights: the first 512 columns, blocks 0, 2, 3, 4, 6 of the seven, transposed. -/
theorem V_w (c : Dev nD) :
    (V (F := Ideal) m c main_v20 : S512x2560.Idx → EReal) = wSel (m ((c.tc : Thread nD τ).loc main_arg2)) := by
  rw [V_w_term]
  funext i
  obtain ⟨k, r, rfl⟩ : ∃ (k : Fin 512) (r : Fin 2560), i = ix2 k r := ⟨i 0, i 1, eq_ix2 i⟩
  exact stagedW_apply _ k r ⟨r.val / 512, by have := r.isLt; omega⟩ ⟨r.val % 512, Nat.mod_lt _ (by decide)⟩
    (by show r.val = r.val / 512 * 512 + r.val % 512; omega)

/-! ## The bias -/

/-- The staged bias as the host operations compose it, over any bias vector. -/
def stagedB (bias : S3584.Idx → EReal) : S2560.Idx → EReal :=
  shapeCast S2560
    (Host.gather gather_S7x512_S5x1_S5x512_1_0_n_n_0_1_1512 (shapeCast S7x512 bias shapeCasts_S3584_S7x512)
      (broadcastInDim S5x1 ![0] bcast_S5_S5x1_0 normWords))
    shapeCasts_S5x512_S2560

theorem V_b_term (c : Dev nD) :
    (V (F := Ideal) m c main_v19 : S2560.Idx → EReal) = stagedB (m ((c.tc : Thread nD τ).loc main_arg3)) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

/-- The staged bias read at r = p·512 + q: the bias at (sel p)·512 + q. -/
theorem stagedB_apply (bias : S3584.Idx → EReal) (r : Fin 2560) (p : Fin 5) (q : Fin 512)
    (hr : r.val = p.val * 512 + q.val) :
    stagedB bias (ix1 r) = bias (ix1 (gateRow (sel p) q)) := by
  unfold stagedB
  refine (Cert.Gcn.LayoutReads.shapeCast_ab_n_apply _ shapeCasts_S5x512_S2560 r p q hr).trans ?_
  refine (Cert.Gcn.GatherClamp.gather2_clamp_apply (by decide) gather_S7x512_S5x1_S5x512_1_0_n_n_0_1_1512
    rfl rfl rfl rfl rfl _ _ p q).trans ?_
  refine (Cert.Gcn.LayoutReads.shapeCast_n_ab_apply bias shapeCasts_S3584_S7x512 _ q (gateRow _ q) rfl).trans ?_
  have hg : min ((broadcastInDim S5x1 ![0] bcast_S5_S5x1_0 normWords) (ix2 p (0 : Fin 1))).toInt.toNat (7 - 1)
      = (sel p).val := by
    rw [colWords_apply]
    exact word_block p
  exact congrArg (fun G => bias (ix1 (gateRow G q))) (Fin.ext hg)

/-- The bias: blocks 0, 2, 3, 4, 6 of the seven. -/
theorem V_b (c : Dev nD) :
    (V (F := Ideal) m c main_v19 : S2560.Idx → EReal) = bSel (m ((c.tc : Thread nD τ).loc main_arg3)) := by
  rw [V_b_term]
  funext i
  obtain ⟨r, rfl⟩ : ∃ r : Fin 2560, i = ix1 r := ⟨i 0, eq_ix1 i⟩
  exact stagedB_apply _ r ⟨r.val / 512, by have := r.isLt; omega⟩ ⟨r.val % 512, Nat.mod_lt _ (by decide)⟩
    (by show r.val = r.val / 512 * 512 + r.val % 512; omega)

end Cert.KernelIdeal.HostPreWeights

end
-- ==== Proof.Tail.lean ====
/-
  The kernel program's run with its result named: the region's output array, cut to the first 32768 rows and
  reshaped to [5, 1024, 32, 512], is the result function of the arguments.
-/
import proofs.«428705_j18296560681638_3_alg».proof.Proof.Array
import proofs.«428705_j18296560681638_3_alg».proof.Proof.HostPreRows
import proofs.«428705_j18296560681638_3_alg».proof.Proof.HostPreWeights
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Tail

open Idealize.ShloMosaic Idealize.ShloMosaic.TcCoe Idealize.ShloMosaic.ValueIdx Idealize.SL.Sem
open Cert.KernelIdeal Cert.KernelIdeal.Gen Cert.DecayCell

/-- The region's output array over the staged arrays of the arguments: at (s, t·32 + b, j) it is the result at
    (s, t, b, j). -/
theorem outArr_apply (m : (ℓ : Loc nD τ sig) → Buf (Elt Ideal) ℓ) (c : Dev nD) (s : Fin 5) (t : Fin 1024) (b : Fin 32)
    (j : Fin 512) :
    ((dats (F := Ideal) m 0 c).arrAt 4 cfg0.N : S5x33024x512.Idx → EReal) (ix3 s (seqRow t b) j)
      = resultAt (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) s t b j := by
  rw [Array.final4 m c, HostPreRows.V_emb m c, HostPreRows.V_dur m c, HostPreWeights.V_w m c, HostPreWeights.V_b m c]
  exact rowsOutAt_staged _ _ _ _ _ s t b j

/-- The program's result: the output array's first 32768 rows, row t·32 + b read as (t, b). -/
theorem tail_value (m : (ℓ : Loc nD τ sig) → Buf (Elt Ideal) ℓ) (c : Dev nD) :
    (Pipeline.afterTail₀ cfgs (dats (F := Ideal) m) 0 (V0 m) [hostOps1] c main_v38 : S5x1024x32x512.Idx → EReal)
      = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) := by
  unfold Pipeline.afterTail₀
  show StableHlo.after hostOps1 _ (Proc.devRef .tc main_v38) = _
  after_results
  funext i
  obtain ⟨s, t, b, j, rfl⟩ : ∃ (s : Fin 5) (t : Fin 1024) (b : Fin 32) (j : Fin 512), i = ix4 s t b j :=
    ⟨i 0, i 1, i 2, i 3, eq_ix4 i⟩
  show shapeCast S5x1024x32x512 (extractStridedSlice S5x32768x512 ![0, 0, 0]
      (Pipeline.withArrays spec0 c (V0 m c) (fun w => (dats (F := Ideal) m 0 c).arrAt w cfg0.N) (Proc.devRef .tc main_v36))
      slices_S5x33024x512_S5x32768x512_0_0_0) shapeCasts_S5x32768x512_S5x1024x32x512 (ix4 s t b j)
    = resultAt _ _ _ _ _ s t b j
  have hb := b.isLt
  have ht := t.isLt
  refine (shapeCast_apply _ _ (ix4 s t b j) (ix3 s (⟨t.val * 32 + b.val, by omega⟩ : Fin 32768) j) ?_).trans ?_
  · rw [Shape.rowMajor_val_three, Shape.rowMajor_val_four]
    show (s.val * 32768 + (t.val * 32 + b.val)) * 512 + j.val = ((s.val * 1024 + t.val) * 32 + b.val) * 512 + j.val
    omega
  refine (slice3_axis1_apply 0 _ _ s (⟨t.val * 32 + b.val, by omega⟩ : Fin 32768) j (seqRow t b) (by simp [seqRow])).trans ?_
  rw [Pipeline.withArrays_arr spec0 launch0.win.arr_inj c _ _ 4]
  exact outArr_apply m c s t b j

/-- Every weakly fair execution of the kernel program ends with its result array at `result` of the arguments,
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c =>
    ⟨((h c).2 main_v38 (Pipeline.mem_restRefs_of main_v38 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tail

end
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.LibPadSum.lean ====
/-
  A finite sum whose tail vanishes.

  If the terms of a sum over the first N naturals vanish from position n on, the sum is the sum of the first n terms.
  Stated in any commutative additive monoid, over `Fin`-indexed terms; only regrouping and `x + 0 = x` are used.
-/
import Mathlib.Algebra.BigOperators.Fin
import Mathlib.Algebra.BigOperators.Group.Finset.Basic

namespace Cert.LibPadSum

open scoped BigOperators

/-- The sum over `Fin N` of terms that vanish at every position `≥ n` is the sum of the first `n` terms. -/
theorem sum_of_tail_zero {M : Type*} [AddCommMonoid M] {n N : ℕ} (h : n ≤ N) (f : Fin N → M)
    (hz : ∀ p : Fin N, n ≤ p.val → f p = 0) :
    ∑ p : Fin N, f p = ∑ p : Fin n, f (Fin.castLE h p) := by
  -- split the range at n: the first n positions, then the k = N - n positions behind them
  obtain ⟨k, rfl⟩ := Nat.exists_eq_add_of_le h
  rw [Fin.sum_univ_add]
  -- every term of the second part sits at a position n + i, where f vanishes
  have htail : ∑ i : Fin k, f (Fin.natAdd n i) = 0 :=
    Finset.sum_eq_zero fun i _ => hz (Fin.natAdd n i) (show n ≤ n + i.val from Nat.le_add_right n i.val)
  rw [htail, add_zero]
  -- the two embeddings of the first n positions agree: each keeps the position
  exact Finset.sum_congr rfl fun p _ => congrArg f (Fin.ext rfl)

end Cert.LibPadSum
-- ==== Proof.RefGates.lean ====
/-
  The reference's gate pre-activations: the contraction of the 1024-wide fed row — the selected embedding row
  followed by 512 zeros — with a row of the weight matrix is the contraction of the embedding row with the
  row's first 512 entries, the zero half adding nothing; the bias row is added to it.
-/
import proofs.«428705_j18296560681638_3_alg».proof.Proof.Gen.ReferenceIdeal.Read
import proofs.«428705_j18296560681638_3_alg».proof.Proof.Spec
import proofs.«428705_j18296560681638_3_alg».proof.Proof.LibWordArith
import proofs.«428705_j18296560681638_3_alg».proof.Proof.LibPadSum
import proofs.«428705_j18296560681638_3_alg».proof.Proof.LibGather3Clamp
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefGates

open Idealize.ShloMosaic Idealize.ShloMosaic.ValueIdx Cert.ReferenceIdeal Cert.ReferenceIdeal.Read Cert.DecayCell

/-! ## The index maps of the stages, at an index given by its coordinates -/

theorem idx_v5_ix3 (b : Fin 32) (t : Fin 1024) (z : Fin 1) : idx_main_v5 (ix3 b t z) = ix2 b t :=
  funext fun a => Fin.ext (by match a with | ⟨0, _⟩ => rfl | ⟨1, _⟩ => rfl)

theorem lidx_v9_ix3 (b : Fin 32) (t : Fin 1024) (G : Fin 3584) (k : Fin 1024) :
    lidx_main_v9 (ix3 b t G) k = ix3 b t k :=
  funext fun a => Fin.ext (by match a with | ⟨0, _⟩ => rfl | ⟨1, _⟩ => rfl | ⟨2, _⟩ => rfl)

theorem ridx_v9_ix3 (b : Fin 32) (t : Fin 1024) (G : Fin 3584) (k : Fin 1024) :
    ridx_main_v9 (ix3 b t G) k = ix2 G k :=
  funext fun a => Fin.ext (by match a with | ⟨0, _⟩ => rfl | ⟨1, _⟩ => rfl)

theorem idx_v10_v11_ix3 (b : Fin 32) (t : Fin 1024) (G : Fin 3584) :
    idx_main_v10 (idx_main_v11 (ix3 b t G)) = ix1 G :=
  funext fun a => Fin.ext (by match a with | ⟨0, _⟩ => rfl)

/-! ## The stages at an index -/

/-- A non-negative event word is not moved by the wrap of negative indices. -/
theorem v4_apply (ids : (⟨S32x1024, .i32⟩ : BufTy).Contents (Elt Ideal))
    (hpos : ∀ (b : Fin 32) (t : Fin 1024), (ids (ix2 b t)).toNat < 2 ^ 31) (b : Fin 32) (t : Fin 1024) :
    val_main_v4 (F := Ideal) ids (ix2 b t) = ids (ix2 b t) := by
  rw [val_main_v4_apply, val_main_v1_apply, val_main_v3_apply, val_main_v0_apply, val_main_c_apply,
    val_main_v2_apply, val_main_c_0_apply]
  exact Cert.Gcn.WordArith.select_slt_zero_small _ (hpos b t)

/-- The index column holds the event words. -/
theorem v5_apply (ids : (⟨S32x1024, .i32⟩ : BufTy).Contents (Elt Ideal))
    (hpos : ∀ (b : Fin 32) (t : Fin 1024), (ids (ix2 b t)).toNat < 2 ^ 31) (b : Fin 32) (t : Fin 1024) (z : Fin 1) :
    val_main_v5 (F := Ideal) ids (ix3 b t z) = ids (ix2 b t) := by
  rw [val_main_v5_apply, idx_v5_ix3, v4_apply ids hpos]

/-- The gathered array holds, at (b, t, k), entry k of the table row the event word selects. -/
theorem v6_apply (ids : (⟨S32x1024, .i32⟩ : BufTy).Contents (Elt Ideal)) (tab : (⟨S1025x512, .f32⟩ : BufTy).Contents (Elt Ideal))
    (hpos : ∀ (b : Fin 32) (t : Fin 1024), (ids (ix2 b t)).toNat < 2 ^ 31) (b : Fin 32) (t : Fin 1024) (k : Fin 512) :
    val_main_v6 (F := Ideal) ids tab (ix3 b t k) = tab (ix2 (rowOf (ids (ix2 b t))) k) := by
  unfold val_main_v6
  refine (Cert.DecayCell.Gather3Clamp.gather3_clamp_apply (n := 1025) (f := 512) (e1 := 32) (e2 := 1024) (by decide)
    gather_S1025x512_S32x1024x1_S32x1024x512_2_0_n_n_0_2_1512 rfl rfl rfl rfl rfl tab (val_main_v5 (F := Ideal) ids) b t k).trans ?_
  -- the clamped row of the column's word is the row the event word selects
  refine congrArg (fun r : Fin 1025 => tab (ix2 r k)) (Fin.ext ?_)
  show min (val_main_v5 (F := Ideal) ids (ix3 b t (0 : Fin 1))).toInt.toNat 1024 = min (ids (ix2 b t)).toInt.toNat 1024
  rw [v5_apply ids hpos]

/-- The fed row's first half is the gathered row. -/
theorem v8_apply_lo (ids : (⟨S32x1024, .i32⟩ : BufTy).Contents (Elt Ideal)) (tab : (⟨S1025x512, .f32⟩ : BufTy).Contents (Elt Ideal))
    (b : Fin 32) (t : Fin 1024) (k : Fin 1024) (k' : Fin 512) (hk : k.val = k'.val) :
    val_main_v8 (F := Ideal) ids tab (ix3 b t k) = val_main_v6 (F := Ideal) ids tab (ix3 b t k') := by
  unfold val_main_v8
  generalize val_main_v6 (F := Ideal) ids tab = y6
  generalize val_main_v7 (F := Ideal) = y7
  exact concatenate_pair_apply_left (t := S32x1024x1024) (s₁ := S32x1024x512) (s₂ := S32x1024x512) (2 : Fin 3) y6 y7
    Gen.concatenates_S32x1024x512_S32x1024x512_S32x1024x1024_d2 (ix3 b t k) rfl (ix3 b t k') (fun a => by
      match a with
      | ⟨0, _⟩ => rfl
      | ⟨1, _⟩ => rfl
      | ⟨2, _⟩ => exact hk.symm)

/-- The fed row's second half is zero. -/
theorem v8_apply_hi (ids : (⟨S32x1024, .i32⟩ : BufTy).Contents (Elt Ideal)) (tab : (⟨S1025x512, .f32⟩ : BufTy).Contents (Elt Ideal))
    (b : Fin 32) (t : Fin 1024) (k : Fin 1024) (hk : 512 ≤ k.val) :
    val_main_v8 (F := Ideal) ids tab (ix3 b t k) = 0 := by
  have hlt : k.val - 512 < 512 := by have := k.isLt; omega
  have e : val_main_v8 (F := Ideal) ids tab (ix3 b t k) = val_main_v7 (F := Ideal) (ix3 b t (⟨k.val - 512, hlt⟩ : Fin 512)) := by
    unfold val_main_v8
    generalize val_main_v6 (F := Ideal) ids tab = y6
    generalize val_main_v7 (F := Ideal) = y7
    exact concatenate_pair_apply_right (t := S32x1024x1024) (s₁ := S32x1024x512) (s₂ := S32x1024x512) (2 : Fin 3) y6 y7
      Gen.concatenates_S32x1024x512_S32x1024x512_S32x1024x1024_d2 (ix3 b t k) rfl rfl (ix3 b t (⟨k.val - 512, hlt⟩ : Fin 512))
      (fun a ha => by
        match a, ha with
        | ⟨0, _⟩, _ => rfl
        | ⟨1, _⟩, _ => rfl
        | ⟨2, _⟩, ha => exact absurd rfl ha)
      (by show k.val - 512 + 512 = k.val; omega)
  rw [e, val_main_v7_apply, val_main_cst_apply]
  exact Ideal.ofBits_zero_f32

/-- The reference's pre-activation array at (b, t, G), where every event word is non-negative. -/
theorem gates_apply (ids : (⟨S32x1024, .i32⟩ : BufTy).Contents (Elt Ideal)) (W : (⟨S3584x1024, .f32⟩ : BufTy).Contents (Elt Ideal))
    (bias : (⟨S3584, .f32⟩ : BufTy).Contents (Elt Ideal)) (tab : (⟨S1025x512, .f32⟩ : BufTy).Contents (Elt Ideal))
    (hpos : ∀ (b : Fin 32) (t : Fin 1024), (ids (ix2 b t)).toNat < 2 ^ 31)
    (b : Fin 32) (t : Fin 1024) (G : Fin 3584) :
    val_main_v12 (F := Ideal) ids W bias tab (ix3 b t G) = preRow ids W bias tab G b t := by
  rw [val_main_v12_apply, val_main_v9_apply, val_main_v11_apply, val_main_v10_apply, idx_v10_v11_ix3]
  unfold preRow
  rw [Ideal.addf_def]
  congr 1
  -- the contraction over the 1024 fed columns: the last 512 terms are 0 · w
  rw [Cert.LibPadSum.sum_of_tail_zero (show 512 ≤ 1024 by decide) _ (fun p hp => by
    rw [lidx_v9_ix3, v8_apply_hi ids tab b t p hp, zero_mul])]
  refine Finset.sum_congr rfl fun k _ => ?_
  rw [lidx_v9_ix3, ridx_v9_ix3, v8_apply_lo ids tab b t _ k rfl, v6_apply ids tab hpos]
  rfl

end Cert.ReferenceIdeal.RefGates

end
-- ==== Proof.RefValue.lean ====
/-
  The reference's result is the result function, where every event word is non-negative: the index
  normalisation then leaves the word alone and the gather's clamp selects the row `rowOf` names; the
  contraction over 1024 columns against the embedding row followed by 512 zeros is the contraction over the
  first 512.

  From the pre-activation array on, the reference is elementwise.  The slices at column offsets 0, 1024,
  1536, 2048 and 3072 are gate blocks 0, 2, 3, 4 and 6.  A sigmoid is spelt 1 / (1 + e^(-x)), which is the
  logistic function once the word of the float 1 is read as 1.  The softplus is a select between x + 0 and
  max(x, 0) + log(1 + e^(-|x - 0|)) on "x - 0 differs from itself", which never holds, so it is the second
  with the zeros dropped.  The five results are transposed to time-major, given a leading unit axis and
  stacked along it, so output s at (t, b, j) is the s-th of them at (b, t, j).
-/
import proofs.«428705_j18296560681638_3_alg».proof.Proof.Gen.ReferenceIdeal.Read
import proofs.«428705_j18296560681638_3_alg».proof.Proof.RefGates
import proofs.«428705_j18296560681638_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read Cert.DecayCell

/-! ## Five arrays with a leading unit axis, stacked along it -/

section Stack5
variable {α : Type} {a b c : Nat}
  (x0 x1 x2 x3 x4 : (⟨4, ![1, a, b, c]⟩ : Shape).Idx → α)
  (h : Shape.Concatenates [(⟨4, ![1, a, b, c]⟩ : Shape), ⟨4, ![1, a, b, c]⟩, ⟨4, ![1, a, b, c]⟩, ⟨4, ![1, a, b, c]⟩,
    ⟨4, ![1, a, b, c]⟩] ⟨4, ![5, a, b, c]⟩ 0)

/-- Off the stacked axis the piece's index has the stack's coordinates. -/
private theorem off_axis (s : Fin 5) (p : Fin a) (q : Fin b) (r : Fin c) :
    ∀ d : Fin 4, d.cast rfl ≠ (0 : Fin 4) →
      ((ix4 (0 : Fin 1) p q r : (⟨4, ![1, a, b, c]⟩ : Shape).Idx) d).val
        = ((ix4 s p q r : (⟨4, ![5, a, b, c]⟩ : Shape).Idx) (d.cast rfl)).val := fun d hd => by
  match d, hd with
  | ⟨0, _⟩, hd => exact absurd rfl hd
  | ⟨1, _⟩, _ => rfl
  | ⟨2, _⟩, _ => rfl
  | ⟨3, _⟩, _ => rfl

/-- Position 0 of the stack is the first array. -/
theorem stack5_0_apply (s : Fin 5) (p : Fin a) (q : Fin b) (r : Fin c) (hs : s.val = 0) :
    concatenate ⟨4, ![5, a, b, c]⟩ 0 [⟨⟨4, ![1, a, b, c]⟩, x0⟩, ⟨⟨4, ![1, a, b, c]⟩, x1⟩, ⟨⟨4, ![1, a, b, c]⟩, x2⟩,
      ⟨⟨4, ![1, a, b, c]⟩, x3⟩, ⟨⟨4, ![1, a, b, c]⟩, x4⟩] h (ix4 s p q r) = x0 (ix4 (0 : Fin 1) p q r) :=
  concatenate_apply_piece (t := ⟨4, ![5, a, b, c]⟩) (0 : Fin 4)
    [⟨⟨4, ![1, a, b, c]⟩, x0⟩, ⟨⟨4, ![1, a, b, c]⟩, x1⟩, ⟨⟨4, ![1, a, b, c]⟩, x2⟩,
      ⟨⟨4, ![1, a, b, c]⟩, x3⟩, ⟨⟨4, ![1, a, b, c]⟩, x4⟩] h (ix4 s p q r)
    0 (by simp) ⟨4, ![1, a, b, c]⟩ x0 rfl rfl 0 rfl (ix4 (0 : Fin 1) p q r) (off_axis s p q r)
    (by show 0 + 0 = s.val; omega)

/-- Position 1 of the stack is the second array. -/
theorem stack5_1_apply (s : Fin 5) (p : Fin a) (q : Fin b) (r : Fin c) (hs : s.val = 1) :
    concatenate ⟨4, ![5, a, b, c]⟩ 0 [⟨⟨4, ![1, a, b, c]⟩, x0⟩, ⟨⟨4, ![1, a, b, c]⟩, x1⟩, ⟨⟨4, ![1, a, b, c]⟩, x2⟩,
      ⟨⟨4, ![1, a, b, c]⟩, x3⟩, ⟨⟨4, ![1, a, b, c]⟩, x4⟩] h (ix4 s p q r) = x1 (ix4 (0 : Fin 1) p q r) :=
  concatenate_apply_piece (t := ⟨4, ![5, a, b, c]⟩) (0 : Fin 4)
    [⟨⟨4, ![1, a, b, c]⟩, x0⟩, ⟨⟨4, ![1, a, b, c]⟩, x1⟩, ⟨⟨4, ![1, a, b, c]⟩, x2⟩,
      ⟨⟨4, ![1, a, b, c]⟩, x3⟩, ⟨⟨4, ![1, a, b, c]⟩, x4⟩] h (ix4 s p q r)
    1 (by simp) ⟨4, ![1, a, b, c]⟩ x1 rfl rfl 1 (by simp) (ix4 (0 : Fin 1) p q r) (off_axis s p q r)
    (by show 1 + 0 = s.val; omega)

/-- Position 2 of the stack is the third array. -/
theorem stack5_2_apply (s : Fin 5) (p : Fin a) (q : Fin b) (r : Fin c) (hs : s.val = 2) :
    concatenate ⟨4, ![5, a, b, c]⟩ 0 [⟨⟨4, ![1, a, b, c]⟩, x0⟩, ⟨⟨4, ![1, a, b, c]⟩, x1⟩, ⟨⟨4, ![1, a, b, c]⟩, x2⟩,
      ⟨⟨4, ![1, a, b, c]⟩, x3⟩, ⟨⟨4, ![1, a, b, c]⟩, x4⟩] h (ix4 s p q r) = x2 (ix4 (0 : Fin 1) p q r) :=
  concatenate_apply_piece (t := ⟨4, ![5, a, b, c]⟩) (0 : Fin 4)
    [⟨⟨4, ![1, a, b, c]⟩, x0⟩, ⟨⟨4, ![1, a, b, c]⟩, x1⟩, ⟨⟨4, ![1, a, b, c]⟩, x2⟩,
      ⟨⟨4, ![1, a, b, c]⟩, x3⟩, ⟨⟨4, ![1, a, b, c]⟩, x4⟩] h (ix4 s p q r)
    2 (by simp) ⟨4, ![1, a, b, c]⟩ x2 rfl rfl 2 (by simp) (ix4 (0 : Fin 1) p q r) (off_axis s p q r)
    (by show 2 + 0 = s.val; omega)

/-- Position 3 of the stack is the fourth array. -/
theorem stack5_3_apply (s : Fin 5) (p : Fin a) (q : Fin b) (r : Fin c) (hs : s.val = 3) :
    concatenate ⟨4, ![5, a, b, c]⟩ 0 [⟨⟨4, ![1, a, b, c]⟩, x0⟩, ⟨⟨4, ![1, a, b, c]⟩, x1⟩, ⟨⟨4, ![1, a, b, c]⟩, x2⟩,
      ⟨⟨4, ![1, a, b, c]⟩, x3⟩, ⟨⟨4, ![1, a, b, c]⟩, x4⟩] h (ix4 s p q r) = x3 (ix4 (0 : Fin 1) p q r) :=
  concatenate_apply_piece (t := ⟨4, ![5, a, b, c]⟩) (0 : Fin 4)
    [⟨⟨4, ![1, a, b, c]⟩, x0⟩, ⟨⟨4, ![1, a, b, c]⟩, x1⟩, ⟨⟨4, ![1, a, b, c]⟩, x2⟩,
      ⟨⟨4, ![1, a, b, c]⟩, x3⟩, ⟨⟨4, ![1, a, b, c]⟩, x4⟩] h (ix4 s p q r)
    3 (by simp) ⟨4, ![1, a, b, c]⟩ x3 rfl rfl 3 (by simp) (ix4 (0 : Fin 1) p q r) (off_axis s p q r)
    (by show 3 + 0 = s.val; omega)

/-- Position 4 of the stack is the fifth array. -/
theorem stack5_4_apply (s : Fin 5) (p : Fin a) (q : Fin b) (r : Fin c) (hs : s.val = 4) :
    concatenate ⟨4, ![5, a, b, c]⟩ 0 [⟨⟨4, ![1, a, b, c]⟩, x0⟩, ⟨⟨4, ![1, a, b, c]⟩, x1⟩, ⟨⟨4, ![1, a, b, c]⟩, x2⟩,
      ⟨⟨4, ![1, a, b, c]⟩, x3⟩, ⟨⟨4, ![1, a, b, c]⟩, x4⟩] h (ix4 s p q r) = x4 (ix4 (0 : Fin 1) p q r) :=
  concatenate_apply_piece (t := ⟨4, ![5, a, b, c]⟩) (0 : Fin 4)
    [⟨⟨4, ![1, a, b, c]⟩, x0⟩, ⟨⟨4, ![1, a, b, c]⟩, x1⟩, ⟨⟨4, ![1, a, b, c]⟩, x2⟩,
      ⟨⟨4, ![1, a, b, c]⟩, x3⟩, ⟨⟨4, ![1, a, b, c]⟩, x4⟩] h (ix4 s p q r)
    4 (by simp) ⟨4, ![1, a, b, c]⟩ x4 rfl rfl 4 (by simp) (ix4 (0 : Fin 1) p q r) (off_axis s p q r)
    (by show 4 + 0 = s.val; omega)

end Stack5

/-! ## The two scalar spellings -/

/-- 1 / (1 + e^(-x)), with the float 1 given by its word, is the logistic function. -/
theorem sigmoid_eq (x : EReal) :
    Ideal.div (Ideal.ofBits .f32 0x3F800000#32) (Ideal.ofBits .f32 0x3F800000#32 + Ideal.exp (-x)) = Ideal.logistic x := by
  rw [ofBits_one_f32]; rfl

/-- The select between x + 0 and max(x, 0) + log(1 + e^(-|x - 0|)) on "x - 0 differs from itself" is softplus: the
    condition never holds, and the zeros drop. -/
theorem softplus_eq (x : EReal) :
    Scalar.select (Ideal.cmp .une (x - Ideal.ofBits .f32 0x00000000#32) (x - Ideal.ofBits .f32 0x00000000#32))
      (x + Ideal.ofBits .f32 0x00000000#32)
      (max x (Ideal.ofBits .f32 0x00000000#32)
        + Ideal.log1p (Ideal.exp (-(max (x - Ideal.ofBits .f32 0x00000000#32) (-(x - Ideal.ofBits .f32 0x00000000#32))))))
      = softplus x := by
  rw [cmp_une_self, select_zero, Ideal.ofBits_zero_f32, sub_zero]; rfl

/-! ## The reference's elementwise stages at (b, t, j) -/

section Stages
variable (ids : (⟨S32x1024, .i32⟩ : BufTy).Contents (Elt Ideal)) (dur : (⟨S32x1024, .f32⟩ : BufTy).Contents (Elt Ideal))
  (W : (⟨S3584x1024, .f32⟩ : BufTy).Contents (Elt Ideal)) (bias : (⟨S3584, .f32⟩ : BufTy).Contents (Elt Ideal))
  (tab : (⟨S1025x512, .f32⟩ : BufTy).Contents (Elt Ideal))
  (hpos : ∀ (b : Fin 32) (t : Fin 1024), (ids (ix2 b t)).toNat < 2 ^ 31)
  (b : Fin 32) (t : Fin 1024) (j : Fin 512)
include hpos

/-- The slice at column offset 0 is gate block 0, the input gate. -/
theorem v13_at : val_main_v13 (F := Ideal) ids W bias tab (ix3 b t j) = preAct ids W bias tab 0 b t j := by
  have e : idx_main_v13 (ix3 b t j) = ix3 b t (gateRow 0 j) := by
    funext a
    match a with
    | ⟨0, _⟩ => rfl
    | ⟨1, _⟩ => rfl
    | ⟨2, _⟩ => exact Fin.ext (by show j.val = 0 * 512 + j.val; omega)
  rewrite [val_main_v13_apply, e, RefGates.gates_apply ids W bias tab hpos]
  rfl

/-- The slice at column offset 1024 is gate block 2, the candidate. -/
theorem v15_at : val_main_v15 (F := Ideal) ids W bias tab (ix3 b t j) = preAct ids W bias tab 2 b t j := by
  have e : idx_main_v15 (ix3 b t j) = ix3 b t (gateRow 2 j) := by
    funext a
    match a with
    | ⟨0, _⟩ => rfl
    | ⟨1, _⟩ => rfl
    | ⟨2, _⟩ => exact Fin.ext (by show 1024 + j.val = 2 * 512 + j.val; omega)
  rewrite [val_main_v15_apply, e, RefGates.gates_apply ids W bias tab hpos]
  rfl

/-- The slice at column offset 1536 is gate block 3, the output gate. -/
theorem v16_at : val_main_v16 (F := Ideal) ids W bias tab (ix3 b t j) = preAct ids W bias tab 3 b t j := by
  have e : idx_main_v16 (ix3 b t j) = ix3 b t (gateRow 3 j) := by
    funext a
    match a with
    | ⟨0, _⟩ => rfl
    | ⟨1, _⟩ => rfl
    | ⟨2, _⟩ => exact Fin.ext (by show 1536 + j.val = 3 * 512 + j.val; omega)
  rewrite [val_main_v16_apply, e, RefGates.gates_apply ids W bias tab hpos]
  rfl

/-- The slice at column offset 2048 is gate block 4, the second input gate. -/
theorem v17_at : val_main_v17 (F := Ideal) ids W bias tab (ix3 b t j) = preAct ids W bias tab 4 b t j := by
  have e : idx_main_v17 (ix3 b t j) = ix3 b t (gateRow 4 j) := by
    funext a
    match a with
    | ⟨0, _⟩ => rfl
    | ⟨1, _⟩ => rfl
    | ⟨2, _⟩ => exact Fin.ext (by show 2048 + j.val = 4 * 512 + j.val; omega)
  rewrite [val_main_v17_apply, e, RefGates.gates_apply ids W bias tab hpos]
  rfl

/-- The slice at column offset 3072 is gate block 6, the decay gate. -/
theorem v19_at : val_main_v19 (F := Ideal) ids W bias tab (ix3 b t j) = preAct ids W bias tab 6 b t j := by
  have e : idx_main_v19 (ix3 b t j) = ix3 b t (gateRow 6 j) := by
    funext a
    match a with
    | ⟨0, _⟩ => rfl
    | ⟨1, _⟩ => rfl
    | ⟨2, _⟩ => exact Fin.ext (by show 3072 + j.val = 6 * 512 + j.val; omega)
  rewrite [val_main_v19_apply, e, RefGates.gates_apply ids W bias tab hpos]
  rfl

/-- The sigmoid of gate block 0. -/
theorem v25_at : val_main_v25 (F := Ideal) ids W bias tab (ix3 b t j) = Ideal.logistic (preAct ids W bias tab 0 b t j) := by
  rewrite [val_main_v25_apply, val_main_v24_apply, val_main_cst_2_apply, val_main_v23_apply, val_main_v22_apply,
    val_main_cst_1_apply, val_main_v21_apply, val_main_v20_apply, v13_at ids W bias tab hpos]
  exact sigmoid_eq _

/-- The sigmoid of gate block 3. -/
theorem v32_at : val_main_v32 (F := Ideal) ids W bias tab (ix3 b t j) = Ideal.logistic (preAct ids W bias tab 3 b t j) := by
  rewrite [val_main_v32_apply, val_main_v31_apply, val_main_cst_4_apply, val_main_v30_apply, val_main_v29_apply,
    val_main_cst_3_apply, val_main_v28_apply, val_main_v27_apply, v16_at ids W bias tab hpos]
  exact sigmoid_eq _

/-- The sigmoid of gate block 4. -/
theorem v38_at : val_main_v38 (F := Ideal) ids W bias tab (ix3 b t j) = Ideal.logistic (preAct ids W bias tab 4 b t j) := by
  rewrite [val_main_v38_apply, val_main_v37_apply, val_main_cst_6_apply, val_main_v36_apply, val_main_v35_apply,
    val_main_cst_5_apply, val_main_v34_apply, val_main_v33_apply, v17_at ids W bias tab hpos]
  exact sigmoid_eq _

/-- The hyperbolic tangent of the candidate. -/
theorem v26_at : val_main_v26 (F := Ideal) ids W bias tab (ix3 b t j) = Ideal.tanh (preAct ids W bias tab 2 b t j) := by
  rewrite [val_main_v26_apply, v15_at ids W bias tab hpos]
  rfl

/-- The decay rate: softplus of the decay gate. -/
theorem v39_at : val_main_v39 (F := Ideal) ids W bias tab (ix3 b t j) = softplus (preAct ids W bias tab 6 b t j) := by
  rewrite [val_main_v39_apply, val_main_call0_v4_apply, val_main_call0_v3_apply, val_main_call0_v2_apply,
    val_main_call0_v6_apply, val_main_call0_v5_apply, val_main_call0_v11_apply, val_main_call0_v1_apply,
    val_main_call0_v0_apply, val_main_call0_v10_apply, val_main_call0_v9_apply, val_main_call0_v8_apply,
    val_main_call0_v7_apply, val_main_call0_v3_apply, val_main_call0_v2_apply, v19_at ids W bias tab hpos]
  simp only [val_main_call0_cst_apply]
  exact softplus_eq _

/-- The cell state c = σ(z₀) · tanh(z₂). -/
theorem v40_at : val_main_v40 (F := Ideal) ids W bias tab (ix3 b t j)
    = Ideal.logistic (preAct ids W bias tab 0 b t j) * Ideal.tanh (preAct ids W bias tab 2 b t j) := by
  rewrite [val_main_v40_apply, v25_at ids W bias tab hpos, v26_at ids W bias tab hpos]
  rfl

/-- The target state c̄ = σ(z₄) · tanh(z₂). -/
theorem v41_at : val_main_v41 (F := Ideal) ids W bias tab (ix3 b t j)
    = Ideal.logistic (preAct ids W bias tab 4 b t j) * Ideal.tanh (preAct ids W bias tab 2 b t j) := by
  rewrite [val_main_v41_apply, v38_at ids W bias tab hpos, v26_at ids W bias tab hpos]
  rfl

omit hpos in
/-- The duration, broadcast along the hidden axis. -/
theorem v45_at : val_main_v45 (F := Ideal) dur (ix3 b t j) = dur (ix2 b t) := by
  have e : idx_main_v44 (idx_main_v45 (ix3 b t j)) = ix2 b t := by
    funext a
    match a with
    | ⟨0, _⟩ => rfl
    | ⟨1, _⟩ => rfl
  rw [val_main_v45_apply, val_main_v44_apply, e]

/-- The decayed state c(d) = c̄ + (c − c̄) · exp(−δ · d). -/
theorem v49_at : val_main_v49 (F := Ideal) ids dur W bias tab (ix3 b t j)
    = Ideal.logistic (preAct ids W bias tab 4 b t j) * Ideal.tanh (preAct ids W bias tab 2 b t j)
      + (Ideal.logistic (preAct ids W bias tab 0 b t j) * Ideal.tanh (preAct ids W bias tab 2 b t j)
          - Ideal.logistic (preAct ids W bias tab 4 b t j) * Ideal.tanh (preAct ids W bias tab 2 b t j))
        * Ideal.exp (-softplus (preAct ids W bias tab 6 b t j) * dur (ix2 b t)) := by
  rewrite [val_main_v49_apply, val_main_v48_apply, val_main_v42_apply, val_main_v47_apply, val_main_v46_apply,
    val_main_v43_apply, v39_at ids W bias tab hpos, v40_at ids W bias tab hpos, v41_at ids W bias tab hpos, v45_at dur]
  rfl

/-- The hidden state h = σ(z₃) · tanh(c(d)). -/
theorem v51_at : val_main_v51 (F := Ideal) ids dur W bias tab (ix3 b t j)
    = Ideal.logistic (preAct ids W bias tab 3 b t j)
      * Ideal.tanh (Ideal.logistic (preAct ids W bias tab 4 b t j) * Ideal.tanh (preAct ids W bias tab 2 b t j)
        + (Ideal.logistic (preAct ids W bias tab 0 b t j) * Ideal.tanh (preAct ids W bias tab 2 b t j)
            - Ideal.logistic (preAct ids W bias tab 4 b t j) * Ideal.tanh (preAct ids W bias tab 2 b t j))
          * Ideal.exp (-softplus (preAct ids W bias tab 6 b t j) * dur (ix2 b t))) := by
  rewrite [val_main_v51_apply, val_main_v50_apply, v32_at ids W bias tab hpos, v49_at ids dur W bias tab hpos]
  rfl

end Stages

/-! ## Time-major, a leading unit axis, and the stack -/

section Layout
variable (ids : (⟨S32x1024, .i32⟩ : BufTy).Contents (Elt Ideal)) (dur : (⟨S32x1024, .f32⟩ : BufTy).Contents (Elt Ideal))
  (W : (⟨S3584x1024, .f32⟩ : BufTy).Contents (Elt Ideal)) (bias : (⟨S3584, .f32⟩ : BufTy).Contents (Elt Ideal))
  (tab : (⟨S1025x512, .f32⟩ : BufTy).Contents (Elt Ideal))
  (s : Fin 5) (t : Fin 1024) (b : Fin 32) (j : Fin 512)

/-- Piece 0 of the stack at (0, t, b, j) is its source at (b, t, j). -/
theorem v57_at : val_main_v57 (F := Ideal) ids dur W bias tab (ix4 (0 : Fin 1) t b j) = val_main_v51 (F := Ideal) ids dur W bias tab (ix3 b t j) := by
  have e : idx_main_v52 (idx_main_v57 (ix4 (0 : Fin 1) t b j)) = ix3 b t j := by
    funext a
    match a with
    | ⟨0, _⟩ => rfl
    | ⟨1, _⟩ => rfl
    | ⟨2, _⟩ => rfl
  rw [val_main_v57_apply, val_main_v52_apply, e]

/-- Output 0 of the stack is piece 0. -/
theorem v62_at0 (hs : s.val = 0) : val_main_v62 (F := Ideal) ids dur W bias tab (ix4 s t b j)
    = val_main_v57 (F := Ideal) ids dur W bias tab (ix4 (0 : Fin 1) t b j) := by
  unfold val_main_v62
  exact stack5_0_apply _ _ _ _ _ _ s t b j hs

/-- Piece 1 of the stack at (0, t, b, j) is its source at (b, t, j). -/
theorem v58_at : val_main_v58 (F := Ideal) ids W bias tab (ix4 (0 : Fin 1) t b j) = val_main_v40 (F := Ideal) ids W bias tab (ix3 b t j) := by
  have e : idx_main_v53 (idx_main_v58 (ix4 (0 : Fin 1) t b j)) = ix3 b t j := by
    funext a
    match a with
    | ⟨0, _⟩ => rfl
    | ⟨1, _⟩ => rfl
    | ⟨2, _⟩ => rfl
  rw [val_main_v58_apply, val_main_v53_apply, e]

/-- Output 1 of the stack is piece 1. -/
theorem v62_at1 (hs : s.val = 1) : val_main_v62 (F := Ideal) ids dur W bias tab (ix4 s t b j)
    = val_main_v58 (F := Ideal) ids W bias tab (ix4 (0 : Fin 1) t b j) := by
  unfold val_main_v62
  exact stack5_1_apply _ _ _ _ _ _ s t b j hs

/-- Piece 2 of the stack at (0, t, b, j) is its source at (b, t, j). -/
theorem v59_at : val_main_v59 (F := Ideal) ids W bias tab (ix4 (0 : Fin 1) t b j) = val_main_v41 (F := Ideal) ids W bias tab (ix3 b t j) := by
  have e : idx_main_v54 (idx_main_v59 (ix4 (0 : Fin 1) t b j)) = ix3 b t j := by
    funext a
    match a with
    | ⟨0, _⟩ => rfl
    | ⟨1, _⟩ => rfl
    | ⟨2, _⟩ => rfl
  rw [val_main_v59_apply, val_main_v54_apply, e]

/-- Output 2 of the stack is piece 2. -/
theorem v62_at2 (hs : s.val = 2) : val_main_v62 (F := Ideal) ids dur W bias tab (ix4 s t b j)
    = val_main_v59 (F := Ideal) ids W bias tab (ix4 (0 : Fin 1) t b j) := by
  unfold val_main_v62
  exact stack5_2_apply _ _ _ _ _ _ s t b j hs

/-- Piece 3 of the stack at (0, t, b, j) is its source at (b, t, j). -/
theorem v60_at : val_main_v60 (F := Ideal) ids W bias tab (ix4 (0 : Fin 1) t b j) = val_main_v32 (F := Ideal) ids W bias tab (ix3 b t j) := by
  have e : idx_main_v55 (idx_main_v60 (ix4 (0 : Fin 1) t b j)) = ix3 b t j := by
    funext a
    match a with
    | ⟨0, _⟩ => rfl
    | ⟨1, _⟩ => rfl
    | ⟨2, _⟩ => rfl
  rw [val_main_v60_apply, val_main_v55_apply, e]

/-- Output 3 of the stack is piece 3. -/
theorem v62_at3 (hs : s.val = 3) : val_main_v62 (F := Ideal) ids dur W bias tab (ix4 s t b j)
    = val_main_v60 (F := Ideal) ids W bias tab (ix4 (0 : Fin 1) t b j) := by
  unfold val_main_v62
  exact stack5_3_apply _ _ _ _ _ _ s t b j hs

/-- Piece 4 of the stack at (0, t, b, j) is its source at (b, t, j). -/
theorem v61_at : val_main_v61 (F := Ideal) ids W bias tab (ix4 (0 : Fin 1) t b j) = val_main_v39 (F := Ideal) ids W bias tab (ix3 b t j) := by
  have e : idx_main_v56 (idx_main_v61 (ix4 (0 : Fin 1) t b j)) = ix3 b t j := by
    funext a
    match a with
    | ⟨0, _⟩ => rfl
    | ⟨1, _⟩ => rfl
    | ⟨2, _⟩ => rfl
  rw [val_main_v61_apply, val_main_v56_apply, e]

/-- Output 4 of the stack is piece 4. -/
theorem v62_at4 (hs : s.val = 4) : val_main_v62 (F := Ideal) ids dur W bias tab (ix4 s t b j)
    = val_main_v61 (F := Ideal) ids W bias tab (ix4 (0 : Fin 1) t b j) := by
  unfold val_main_v62
  exact stack5_4_apply _ _ _ _ _ _ s t b j hs

end Layout

/-- The reference's last stage is `result` of the arguments. -/
theorem reference_value (ids : (⟨S32x1024, .i32⟩ : BufTy).Contents (Elt Ideal)) (dur : (⟨S32x1024, .f32⟩ : BufTy).Contents (Elt Ideal))
    (W : (⟨S3584x1024, .f32⟩ : BufTy).Contents (Elt Ideal)) (bias : (⟨S3584, .f32⟩ : BufTy).Contents (Elt Ideal))
    (tab : (⟨S1025x512, .f32⟩ : BufTy).Contents (Elt Ideal))
    (hpos : ∀ (b : Fin 32) (t : Fin 1024), (ids (ix2 b t)).toNat < 2 ^ 31) :
    val_main_v62 (F := Ideal) ids dur W bias tab = result ids dur W bias tab := by
  funext i
  obtain ⟨s, t, b, j, rfl⟩ : ∃ (s : Fin 5) (t : Fin 1024) (b : Fin 32) (j : Fin 512), i = ix4 s t b j :=
    ⟨i 0, i 1, i 2, i 3, eq_ix4 i⟩
  match s with
  | ⟨0, h0⟩ =>
    rewrite [v62_at0 ids dur W bias tab ⟨0, h0⟩ t b j rfl, v57_at ids dur W bias tab t b j, v51_at ids dur W bias tab hpos b t j]
    rfl
  | ⟨1, h1⟩ =>
    rewrite [v62_at1 ids dur W bias tab ⟨1, h1⟩ t b j rfl, v58_at ids W bias tab t b j, v40_at ids W bias tab hpos b t j]
    rfl
  | ⟨2, h2⟩ =>
    rewrite [v62_at2 ids dur W bias tab ⟨2, h2⟩ t b j rfl, v59_at ids W bias tab t b j, v41_at ids W bias tab hpos b t j]
    rfl
  | ⟨3, h3⟩ =>
    rewrite [v62_at3 ids dur W bias tab ⟨3, h3⟩ t b j rfl, v60_at ids W bias tab t b j, v32_at ids W bias tab hpos b t j]
    rfl
  | ⟨4, h4⟩ =>
    rewrite [v62_at4 ids dur W bias tab ⟨4, h4⟩ t b j rfl, v61_at ids W bias tab t b j, v39_at ids W bias tab hpos b t j]
    rfl

end Cert.ReferenceIdeal.RefValue

end
-- ==== Proof.PreWords.lean ====
/-
  What the precondition says of the event words: every one is non-negative as a signed integer, that is, has its
  sign bit clear. The precondition is a conjunction of "all" reductions; its last conjunct reduces, by "and", the
  array of comparisons "word ≥ 0", so where the whole is 1 every comparison is 1.
-/
import proofs.«428705_j18296560681638_3_alg».proof.Proof.Gen.Pre_finite_inputs
import proofs.«428705_j18296560681638_3_alg».proof.Defs
import Idealize.ShloMosaic.Lib.ValueIdx
import Idealize.ShloMosaic.Lib.ReduceAll
import Idealize.ShloMosaic.Lib.StableHlo.Predicate

noncomputable section

namespace Cert.PreWords

open Idealize.ShloMosaic Idealize.ShloMosaic.ValueIdx

/-- A word that compares signed-greater-or-equal to zero has its sign bit clear. -/
theorem toNat_lt_of_sge_zero (w : BitVec 32) (h : IntOp.cmpi .sge w 0#32 = 1#1) : w.toNat < 2 ^ 31 := by
  have h' : (0#32 : BitVec 32).sle w = true := (StableHlo.Predicate.ofBool_eq_one_iff _).1 h
  rw [BitVec.sle_iff_toInt_le] at h'
  have h0 : (0#32 : BitVec 32).toInt = 0 := by decide
  rw [h0, BitVec.toInt_eq_toNat_cond] at h'
  have := w.isLt
  split at h' <;> omega

/-- The scalar shape has one index. -/
instance : Subsingleton Cert.Pre_finite_inputs.S_.Idx := ⟨fun a b => funext fun d => d.elim0⟩

/-- Where the precondition's word is 1, every event word has its sign bit clear. -/
theorem words_nonneg [Cert.Pre_finite_inputs.Facts] (ids : IVec Cert.Pre_finite_inputs.S32x1024 32)
    (dur : FVec Ideal Cert.Pre_finite_inputs.S32x1024 .f32) (W : FVec Ideal Cert.Pre_finite_inputs.S3584x1024 .f32)
    (bias : FVec Ideal Cert.Pre_finite_inputs.S3584 .f32) (tab : FVec Ideal Cert.Pre_finite_inputs.S1025x512 .f32)
    (h : Cert.Pre_finite_inputs.fn (F := Ideal) ids dur W bias tab = fun _ => 1#1) (b : Fin 32) (t : Fin 1024) :
    (ids (ix2 b t)).toNat < 2 ^ 31 := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 (ix2 b t)
  exact toNat_lt_of_sge_zero _ h2

end Cert.PreWords

end
-- ==== Proof.lean ====
/-
  The certificate of the continuous-time LSTM cell kernel against its reference, over the extended reals.

  Both programs compute `Cert.DecayCell.result` (Proof/Spec.lean) of the five arguments. The kernel program
  (Proof/Tail.lean) clips the event words to the table, gathers the embedding rows time-major, pads them to a
  whole number of 768-row blocks, selects and transposes the five weight blocks the cell reads, runs one grid
  point per block and cuts the padding off; the reference (Proof/RefValue.lean) gathers the rows batch-major,
  appends 512 zeros to each, contracts with the whole weight matrix and applies the cell to five of the seven
  gate blocks. The two differ only in how a NEGATIVE event word is read — the reference counts it from the end of
  the table, the kernel takes row 0 — so the claim is stated where every event word is non-negative
  (Proof/PreWords.lean reads that off the precondition); a word past the end of the table selects the last row
  in both. No law of the extended reals beyond 0 · x = 0 and x + 0 = x joins the two sides, so finiteness of
  the float arguments is never used.
-/
import proofs.«428705_j18296560681638_3_alg».proof.Defs
import proofs.«428705_j18296560681638_3_alg».proof.Proof.Gen.Kernel
import proofs.«428705_j18296560681638_3_alg».proof.Proof.Gen.Kernel.Skeleton
import proofs.«428705_j18296560681638_3_alg».proof.Proof.Gen.Kernel.Launch
import proofs.«428705_j18296560681638_3_alg».proof.Proof.Gen.Kernel.Points
import proofs.«428705_j18296560681638_3_alg».proof.Proof.Gen.Kernel.Frame
import proofs.«428705_j18296560681638_3_alg».proof.Proof.Gen.KernelIdeal
import proofs.«428705_j18296560681638_3_alg».proof.Proof.Gen.KernelIdeal.Skeleton
import proofs.«428705_j18296560681638_3_alg».proof.Proof.Gen.KernelIdeal.Launch
import proofs.«428705_j18296560681638_3_alg».proof.Proof.Gen.KernelIdeal.Points
import proofs.«428705_j18296560681638_3_alg».proof.Proof.Gen.KernelIdeal.Frame
import proofs.«428705_j18296560681638_3_alg».proof.Proof.Gen.ReferenceIdeal
import proofs.«428705_j18296560681638_3_alg».proof.Proof.Gen.ReferenceIdeal.Run
import proofs.«428705_j18296560681638_3_alg».proof.Proof.Gen.ReferenceIdeal.Read
import proofs.«428705_j18296560681638_3_alg».proof.Proof.Gen.Pre_finite_inputs
import proofs.«428705_j18296560681638_3_alg».proof.Proof.Tail
import proofs.«428705_j18296560681638_3_alg».proof.Proof.RefValue
import proofs.«428705_j18296560681638_3_alg».proof.Proof.PreWords
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel and the idealized reference, from memories agreeing on the arguments, end with the same
    result: `Cert.DecayCell.result` of the arguments. -/
theorem algebraic : Cert.algebraic_KernelIdeal_ReferenceIdeal := by
  intro m ρ m' ρ' hpre hagree
  refine ⟨fun c => Cert.DecayCell.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, (hagree c).1, (hagree c).2.1, (hagree c).2.2.1, (hagree c).2.2.2.1,
    (hagree c).2.2.2.2]
  exact Cert.ReferenceIdeal.RefValue.reference_value _ _ _ _ _
    (fun b t => Cert.PreWords.words_nonneg _ _ _ _ _ (hpre c) b t)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
